-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S8192x8192 .f32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S1x128 : Shape := ⟨2, ![1, 128]⟩
abbrev S256x128 : Shape := ⟨2, ![256, 128]⟩
abbrev S256x8192 : Shape := ⟨2, ![256, 8192]⟩
abbrev S8192x1 : Shape := ⟨2, ![8192, 1]⟩
abbrev S256 : Shape := ⟨1, ![256]⟩
abbrev S256x1 : Shape := ⟨2, ![256, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S256x8192, .f32⟩
  | .local _ .vmem, ⟨3, _⟩ => ⟨S256x8192, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S8192x128, .f32⟩
  | .local _ .vmem, ⟨11, _⟩ => ⟨S8192x128, .f32⟩
  | .local _ .vmem, ⟨12, _⟩ => ⟨S8192x1, .f32⟩
  | .local _ .vmem, ⟨13, _⟩ => ⟨S8192x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v9 : Index := Scalar.indexCast v1
  let c0_4 : Index := 0#32
  ![v9.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v20 : Index := Scalar.indexCast v1
  let c0_10 : Index := 0#32
  ![v20.toNat, 0]
def k0_cond2 (i : grid0.Coords) : BitVec 1 :=
  let arg0 : BitVec 32 := BitVec.ofNat 32 (i 0).val
  let c31_i32 : BitVec 32 := 31#32
  let v32 : BitVec 1 := Scalar.cmpi .eq arg0 c31_i32
  let v33 : BitVec 32 := Scalar.extui v32
  let c0_i32_16 : BitVec 32 := 0#32
  let v34 : BitVec 1 := Scalar.cmpi .ne v33 c0_i32_16
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x8192_S256x8192_0_0 : ∀ a, (![0, 0] : Fin 2 → Nat) a + S256x8192.size a ≤ S256x8192.size a
  h_S256x8192 : 0 < S256x8192.numel
  inb_S256x128_S256x128_0_0 : ∀ a, (![0, 0] : Fin 2 → Nat) a + S256x128.size a ≤ S256x128.size a
  h_S256x128 : 0 < S256x128.numel
  reduces_S256x8192_S256 : S256x8192.Reduces [1] S256
  shapeCasts_S256_S256x1 : S256.ShapeCasts S256x1
  h_S256x1 : 0 < S256x1.numel
  shapeCasts_S256x1_S256x1 : S256x1.ShapeCasts S256x1
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x128_S256x128 : S256x128.ShapeCasts S256x128
  bitsLt_bf16_f32 : FTy.bits .bf16 < FTy.bits .f32
  inb_S8192x1_S8192x1_0_0 : ∀ a, (![0, 0] : Fin 2 → Nat) a + S8192x1.size a ≤ S8192x1.size a
  h_S8192x1 : 0 < S8192x1.numel
  broadcasts_S8192x1_S8192x128 : S8192x1.Broadcasts S8192x128
  broadcasts_S1x128_S8192x128 : S1x128.Broadcasts S8192x128
  reduces_S8192x128_S128 : S8192x128.Reduces [0] S128
  dot_S256x128_S128x128_S256x128_1_0_0_1_n_n_wf : DotDims.WF S256x128 S128x128 S256x128 [1] [0] [0] [1] [] []
  dot_S256x8192_S256x128_S8192x128_0_0_1_1_n_n_wf : DotDims.WF S256x8192 S256x128 S8192x128 [0] [0] [1] [1] [] []
  dot_S8192x128_S128x128_S8192x128_1_0_0_1_n_n_wf : DotDims.WF S8192x128 S128x128 S8192x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x1.size a ≤ S8192x1.size a
  k0_off2_inb : ∀ i : grid0.Coords, ∀ a, (k0_off2 i) a + S256x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8192x128.size a ≤ S8192x128.size a
  hwx0_8 : ∀ i : grid0.Coords, EltTy.bits .f32 = 32 ∨ (Rect.block (s := S8192x128) S8192x128.size (cc0_transform_8 i) (hinb0_8 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x8192_S256x128_S8192x128_0_0_1_1_n_n : DotDims S256x8192 S256x128 S8192x128 where
  lhsContracting := [0]
  rhsContracting := [0]
  lhsNonContracting := [1]
  rhsNonContracting := [1]
  lhsBatch := []
  rhsBatch := []
  wf := dot_S256x8192_S256x128_S8192x128_0_0_1_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S8192x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .i1⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x8192, .f32⟩
  | .hbm, ⟨18, _⟩ => ⟨S8192x128, .f32⟩
  | .hbm, ⟨19, _⟩ => ⟨S8192x128, .f32⟩
  | .hbm, ⟨20, _⟩ => ⟨S8192x128, .f32⟩
  | .hbm, ⟨21, _⟩ => ⟨S128x128, .f32⟩
  | .hbm, ⟨22, _⟩ => ⟨S8192x128, .f32⟩
  | .hbm, ⟨23, _⟩ => ⟨S1x128, .f32⟩
  | .hbm, ⟨24, _⟩ => ⟨S8192x128, .f32⟩
  | .hbm, ⟨25, _⟩ => ⟨S8192x128, .f32⟩
  | .hbm, ⟨26, _⟩ => ⟨S128x128, .f32⟩
  | .hbm, ⟨27, _⟩ => ⟨S8192x128, .f32⟩
  | .hbm, ⟨28, _⟩ => ⟨S8192x128, .f32⟩
  | .hbm, ⟨29, _⟩ => ⟨S1x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S8192x128, .f32⟩
  | .hbm, ⟨48, _⟩ => ⟨S8192x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S8192x128, .f32⟩
  | .hbm, ⟨55, _⟩ => ⟨S8192x128, .f32⟩
  | .hbm, ⟨56, _⟩ => ⟨S1x128, .f32⟩
  | .hbm, ⟨57, _⟩ => ⟨S8192x128, .f32⟩
  | .hbm, ⟨58, _⟩ => ⟨S8192x128, .f32⟩
  | .hbm, ⟨59, _⟩ => ⟨S1x128, .f32⟩
  | .hbm, ⟨60, _⟩ => ⟨S8192x128, .f32⟩
  | .hbm, ⟨61, _⟩ => ⟨S8192x128, .f32⟩
  | .hbm, ⟨62, _⟩ => ⟨S_, .f32⟩
  | .hbm, ⟨63, _⟩ => ⟨S8192x128, .f32⟩
  | .hbm, ⟨64, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call1_cst : Ref sig .tc := ⟨.hbm, 62, rfl⟩
abbrev main_call1_v0 : Ref sig .tc := ⟨.hbm, 63, rfl⟩
abbrev main_v46 : Ref sig .tc := ⟨.hbm, 64, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x8192_S8192x8192_1_0 : S8192x8192.Transposes [1, 0] S8192x8192
  bcast_S8192x1_S8192x128_0_1 : S8192x1.BroadcastsInDim S8192x128 (![0, 1] : Fin 2 → Fin S8192x128.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S128_d0 : S8192x128.ReducesTo [0] S128
  bcast_S_S128 : S_.BroadcastsInDim S128 (![] : Fin 0 → Fin S128.rank)
  bcast_S_S8192x128 : S_.BroadcastsInDim S8192x128 (![] : Fin 0 → Fin S8192x128.rank)
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.KernelState.lean ====
/-
  What the kernel keeps in its three scratch buffers, point by point, and what it finally stores.

  The grid walks the 32 row blocks (256 rows each) of the node features `X` and of the adjacency matrix `A`.
  At point `t` the body
    * overwrites rows `[256 t, 256 t + 256)` of the degree scratch with the row sums of `A`'s block,
    * overwrites the same rows of the skip scratch with `X_blk · W_cᵀ + b_c`,
    * adds `A_blkᵀ · X_blk` to the aggregation scratch (reset to zero at the first point),
  and at the last point it computes the normalised, batch-normalised, rectified output from the three
  scratches.  The definitions below name these contents as functions of the blocks the pipeline stages,
  at any float instance.
-/
import proofs.«177865_j88742614270232_1_alg».proof.Proof.Gen.Kernel.Frame
import proofs.«177865_j88742614270232_1_alg».proof.Proof.Gen.Kernel.Skeleton
import Idealize.ShloMosaic.Lib.ValueIdx

noncomputable section

namespace Cert.Kernel.Carry

open Idealize.ShloMosaic Idealize.ShloMosaic.TcCoe Idealize.SL.Sem
open Cert.Kernel Cert.Kernel.Gen

variable {F : FTy → Type} [FloatOps F]
variable (m : (ℓ : Loc nD τ sig) → Buf (Elt F) ℓ)

/-- The staged blocks at a point, at their literal types. -/
abbrev xblk (c : Dev nD) (t : Fin cfg0.N) : Vec F S256x128 .f32 := iblk m c 0 t
abbrev ablk (c : Dev nD) (t : Fin cfg0.N) : Vec F S256x8192 .f32 := iblk m c 1 t
abbrev wnblk (c : Dev nD) (t : Fin cfg0.N) : Vec F S128x128 .f32 := iblk m c 2 t
abbrev bnblk (c : Dev nD) (t : Fin cfg0.N) : Vec F S1x128 .f32 := iblk m c 3 t
abbrev wcblk (c : Dev nD) (t : Fin cfg0.N) : Vec F S128x128 .f32 := iblk m c 4 t
abbrev bcblk (c : Dev nD) (t : Fin cfg0.N) : Vec F S1x128 .f32 := iblk m c 5 t
abbrev gmblk (c : Dev nD) (t : Fin cfg0.N) : Vec F S1x128 .f32 := iblk m c 6 t
abbrev btblk (c : Dev nD) (t : Fin cfg0.N) : Vec F S1x128 .f32 := iblk m c 7 t

/-- The grid has 32 points. -/
theorem N_eq : cfg0.N = 32 := N_0

/-- The point whose block holds row `r`. -/
def ptOf (r : Fin 8192) : Fin cfg0.N := ⟨r.val / 256, lt_of_lt_of_eq (by have := r.isLt; omega : r.val / 256 < 32) N_eq.symm⟩

/-- Row `r`'s position inside its block. -/
def rowIn (r : Fin 8192) : Fin 256 := ⟨r.val % 256, Nat.mod_lt _ (by decide)⟩

/-- The aggregation scratch after point `n`: zero plus the blocks' products up to `n`. -/
def aggAt (c : Dev nD) : (n : ℕ) → n < cfg0.N → Vec F S8192x128 .f32
  | 0, h => k0_pay6 (ablk m c ⟨0, h⟩) (xblk m c ⟨0, h⟩) (k0_pay3 (F := F))
  | n + 1, h => k0_pay6 (ablk m c ⟨n + 1, h⟩) (xblk m c ⟨n + 1, h⟩) (aggAt c n (Nat.lt_of_succ_lt h))

theorem aggAt_zero (c : Dev nD) (h : 0 < cfg0.N) :
    aggAt m c 0 h = k0_pay6 (ablk m c ⟨0, h⟩) (xblk m c ⟨0, h⟩) (k0_pay3 (F := F)) := rfl

theorem aggAt_succ (c : Dev nD) (n : ℕ) (h : n + 1 < cfg0.N) :
    aggAt m c (n + 1) h = k0_pay6 (ablk m c ⟨n + 1, h⟩) (xblk m c ⟨n + 1, h⟩) (aggAt m c n (Nat.lt_of_succ_lt h)) := rfl

/-- The degree scratch once every point has written its rows: row `r` holds the row sum its block's point computed. -/
def degFull (c : Dev nD) : Vec F S8192x1 .f32 := fun j =>
  k0_pay4 (ablk m c (ptOf (j 0))) (ValueIdx.ix2 (rowIn (j 0)) (j 1))

/-- The skip scratch once every point has written its rows: row `r` holds `X_blk · W_cᵀ + b_c` of its block's point. -/
def xwcFull (c : Dev nD) : Vec F S8192x128 .f32 := fun j =>
  k0_pay5 (xblk m c (ptOf (j 0))) (wcblk m c (ptOf (j 0))) (bcblk m c (ptOf (j 0))) (ValueIdx.ix2 (rowIn (j 0)) (j 1))

/-- The last point. -/
def tLast : Fin cfg0.N := ⟨31, lt_of_lt_of_eq (by decide : 31 < 32) N_eq.symm⟩

/-- What the last point stores into the output's staging buffer: the normalised aggregation through the neighbour
    head, the skip head added, batch-normalised over the rows, scaled, shifted and rectified. -/
def outFull (c : Dev nD) : Vec F S8192x128 .f32 :=
  k0_pay1 (k0_pay2 (degFull m c) (aggAt m c 31 tLast.isLt) (wnblk m c tLast) (bnblk m c tLast) (xwcFull m c) (gmblk m c tLast))
    (btblk m c tLast)

end Cert.Kernel.Carry

end
-- ==== Proof.KernelShared.lean ====
/-
  What the three cases of the body share: the two branch conditions decided over the grid (the reset of the
  aggregation at the first point, the epilogue at the last), where the output window is idle, the staging and
  scratch memrefs, the closed forms of the row offsets (row block `t` starts at row `256 t`), and how a block of
  256 rows overwrites a column or a matrix of 8192 rows.
-/
import proofs.«177865_j88742614270232_1_alg».proof.Proof.KernelState
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first conditional's condition (the aggregation's reset), from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 32 = 0 :=
  (by decide +kernel : ∀ t : Fin grid0.N, cond0 (grid0.coords t) ↔ t.val % 32 = 0)

/-- The second conditional's condition (the epilogue). -/
abbrev cond1 (i : grid0.Coords) : Prop := k0_cond2 i = 1#1
/-- It holds at the last point only. -/
theorem hcond1 : ∀ t : Fin cfg0.N, cond1 (grid0.coords t) ↔ t.val % 32 = 31 :=
  (by decide +kernel : ∀ t : Fin grid0.N, cond1 (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The output window is idle at every point but the last, -/
theorem idle8 : ∀ t : Fin cfg0.N, cfg0.idle 8 (grid0.coords t) = true ↔ ¬ t.val % 32 = 31 :=
  (by decide +kernel : ∀ t : Fin grid0.N, cfg0.idle 8 (grid0.coords t) = true ↔ ¬ t.val % 32 = 31)
theorem live8 : ∀ t : Fin cfg0.N, cfg0.idle 8 (grid0.coords t) = false ↔ t.val % 32 = 31 :=
  (by decide +kernel : ∀ t : Fin grid0.N, cfg0.idle 8 (grid0.coords t) = false ↔ t.val % 32 = 31)
/-- and written back there only. -/
theorem noflush8 : ∀ t : Fin cfg0.N, (cfg0.win 8).flush t = false ↔ ¬ t.val % 32 = 31 :=
  (by decide +kernel : ∀ t : Fin grid0.N, win0_8.flush t = false ↔ ¬ t.val % 32 = 31)

/-! ## The memrefs the body is called with -/

abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .f32 := win0_8.stage (cfg0.slots t 8)
abbrev hs8 (t : Fin cfg0.N) : (ms8 t).IsWhole := hstage0_8 ((cfg0.slots t 8).cast nbuf0_8)
/-- The scratch operands: the aggregation, the degrees, the skip values. -/
abbrev scAgg : Memref sig .tc .vmem S8192x128 .f32 := Memref.whole cc0_scratch0
abbrev scDeg : Memref sig .tc .vmem S8192x1 .f32 := Memref.whole cc0_scratch1
abbrev scXwc : Memref sig .tc .vmem S8192x128 .f32 := Memref.whole cc0_scratch2

/-- The class invariant with the scratch operands as memrefs owned at some contents. -/
theorem PhiA_eq (c : Dev nD) :
    (Pipeline.ΦA spec0 c : sProp 𝕄)
      = iprop(iprop((∃ d, owns (c : Thread nD τ) scAgg fullShare d) ∗ (∃ d, owns (c : Thread nD τ) scDeg fullShare d) ∗ (∃ d, owns (c : Thread nD τ) scXwc fullShare d)) ∗ (∃ r, prngReg c r)) := by
  unfold Pipeline.ΦA; rw [scopedRest0_eq]; simp only [scAgg, scDeg, scXwc, owns_whole]; try rfl

/-! ## The row offsets -/

/-- The degree store's offsets at point `t`: row `256 t`, column 0. -/
theorem off1_eq : ∀ t : Fin cfg0.N, k0_off1 (grid0.coords t) = ![256 * t.val, 0] :=
  (by decide +kernel : ∀ t : Fin grid0.N, k0_off1 (grid0.coords t) = ![256 * t.val, 0])
/-- The skip store's offsets at point `t`: row `256 t`, column 0. -/
theorem off2_eq : ∀ t : Fin cfg0.N, k0_off2 (grid0.coords t) = ![256 * t.val, 0] :=
  (by decide +kernel : ∀ t : Fin grid0.N, k0_off2 (grid0.coords t) = ![256 * t.val, 0])

/-! ## Whole-buffer loads and stores -/

/-- The zero offsets of a rank-2 buffer, as the body spells them. -/
theorem hz2 : (![0, 0] : Fin 2 → ℕ) = fun _ => 0 :=
  funext fun a => by match a with | ⟨0, _⟩ => rfl | ⟨1, _⟩ => rfl

/-- A load of a whole buffer through the whole-shape rectangle reads its contents. -/
theorem readAt_whole {S : Shape} {e : EltTy} {off : Fin S.rank → ℕ} (hoff : off = fun _ => 0)
    (inb : ∀ a, off a + S.size a ≤ S.size a) (mr : Memref sig .tc .vmem S e) (h : mr.IsWhole) (x : S.Idx → Elt F e) :
    View.readAt (Elt F) mr.view (Rect.unit off S.size inb).toLoadRect (h.unread x) = x := by
  rw [View.readAt_eq_ld, h.read_unread, View.ld_unit_zero hoff]

/-- A load through the whole-shape rectangle reads the buffer whatever it holds. -/
theorem readAt_whole_any {S : Shape} {e : EltTy} {off : Fin S.rank → ℕ} (hoff : off = fun _ => 0)
    (inb : ∀ a, off a + S.size a ≤ S.size a) (mr : Memref sig .tc .vmem S e) (f : mr.view.ty.Contents (Elt F)) :
    View.readAt (Elt F) mr.view (Rect.unit off S.size inb).toLoadRect f = mr.view.read (Elt F) f := by
  rw [View.readAt_eq_ld, View.ld_unit_zero hoff]

/-- A store through the whole-shape rectangle, last, leaves its payload whatever was stored before. -/
theorem read_store_whole {S : Shape} {e : EltTy} {off : Fin S.rank → ℕ} (hoff : off = fun _ => 0)
    (inb : ∀ a, off a + S.size a ≤ S.size a) (mr : Memref sig .tc .vmem S e) (f : mr.view.ty.Contents (Elt F))
    (w : S.Idx → Elt F e) (L : List (View.Piece (Elt F) S e)) :
    mr.view.read (Elt F) (mr.view.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

/-! ## A block of rows written over a buffer -/

/-- What a buffer of 8192 degree rows reads after the rows of block `i` were stored over contents `xs`. -/
def stDeg (mr : Memref sig .tc .vmem S8192x1 .f32) (h : mr.IsWhole) (i : grid0.Coords) (xs : Vec F S8192x1 .f32)
    (v : FVec F S256x1 .f32) : Vec F S8192x1 .f32 :=
  mr.view.read (Elt F) (mr.view.writes (Elt F) (h.unread xs)
    [⟨Rect.unit (s := S8192x1) (k0_off1 i) S256x1.size (k0_off1_inb i), v⟩])

/-- What a buffer of 8192 skip rows reads after the rows of block `i` were stored over contents `xs`. -/
def stXwc (mr : Memref sig .tc .vmem S8192x128 .f32) (h : mr.IsWhole) (i : grid0.Coords) (xs : Vec F S8192x128 .f32)
    (v : FVec F S256x128 .f32) : Vec F S8192x128 .f32 :=
  mr.view.read (Elt F) (mr.view.writes (Elt F) (h.unread xs)
    [⟨Rect.unit (s := S8192x128) (k0_off2 i) S256x128.size (k0_off2_inb i), v⟩])

/-- Rows `[256 t, 256 t + 256)` of `xs` replaced by `v`. -/
def updDeg (t : ℕ) (xs : Vec F S8192x1 .f32) (v : FVec F S256x1 .f32) : Vec F S8192x1 .f32 := fun j =>
  if h : 256 * t ≤ (j 0).val ∧ (j 0).val < 256 * t + 256 then
    v (ValueIdx.ix2 (⟨(j 0).val - 256 * t, by omega⟩ : Fin 256) (j 1))
  else xs j

/-- Rows `[256 t, 256 t + 256)` of `xs` replaced by `v`. -/
def updXwc (t : ℕ) (xs : Vec F S8192x128 .f32) (v : FVec F S256x128 .f32) : Vec F S8192x128 .f32 := fun j =>
  if h : 256 * t ≤ (j 0).val ∧ (j 0).val < 256 * t + 256 then
    v (ValueIdx.ix2 (⟨(j 0).val - 256 * t, by omega⟩ : Fin 256) (j 1))
  else xs j

/-- The store at point `t` replaces the rows of block `t`. -/
theorem stDeg_eq (mr : Memref sig .tc .vmem S8192x1 .f32) (h : mr.IsWhole) (t : Fin cfg0.N) (xs : Vec F S8192x1 .f32)
    (v : FVec F S256x1 .f32) : stDeg mr h (grid0.coords t) xs v = updDeg t.val xs v := by
  funext j
  unfold stDeg updDeg
  rw [View.read_writes_cons_rows mr.view (h.unread xs) (k0_off1_inb (grid0.coords t)) v [] j (off1_eq t) (W := 256) rfl rfl]
  split
  · next hj =>
    refine congrArg v (funext fun a => Fin.ext ?_)
    match a with
    | ⟨0, _⟩ => rfl
    | ⟨1, _⟩ => exact Nat.sub_zero _
  · rw [View.writes_nil, h.read_unread]

/-- The store at point `t` replaces the rows of block `t`. -/
theorem stXwc_eq (mr : Memref sig .tc .vmem S8192x128 .f32) (h : mr.IsWhole) (t : Fin cfg0.N) (xs : Vec F S8192x128 .f32)
    (v : FVec F S256x128 .f32) : stXwc mr h (grid0.coords t) xs v = updXwc t.val xs v := by
  funext j
  unfold stXwc updXwc
  rw [View.read_writes_cons_rows mr.view (h.unread xs) (k0_off2_inb (grid0.coords t)) v [] j (off2_eq t) (W := 256) rfl rfl]
  split
  · next hj =>
    refine congrArg v (funext fun a => Fin.ext ?_)
    match a with
    | ⟨0, _⟩ => rfl
    | ⟨1, _⟩ => exact Nat.sub_zero _
  · rw [View.writes_nil, h.read_unread]

end Cert.Kernel.Carry

end
-- ==== Proof.KernelData.lean ====
/-
  The frame of the one pallas_call, with the scratch buffers' contents carried point by point.

  Before point `n ≥ 1` the aggregation scratch holds the blocks' products up to point `n − 1`, and the degree and skip
  scratches hold their final rows on the blocks already visited (rows below `256 n`) and anything on the others.  Each
  point re-establishes this one block further; after the last point (8192 = 32 · 256 rows) the two are complete, which is
  what the epilogue reads, so the output's staging buffer — idle until then — holds the final activations and is
  written back whole.
-/
import proofs.«177865_j88742614270232_1_alg».proof.Proof.KernelShared

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows already final -/

/-- `d` holds the final degrees on the rows below `256 n`. -/
def DegOk (c : Dev nD) (n : ℕ) (d : Vec F S8192x1 .f32) : Prop :=
  ∀ j : S8192x1.Idx, (j 0).val < 256 * n → d j = degFull m c j

/-- `d` holds the final skip values on the rows below `256 n`. -/
def XwcOk (c : Dev nD) (n : ℕ) (d : Vec F S8192x128 .f32) : Prop :=
  ∀ j : S8192x128.Idx, (j 0).val < 256 * n → d j = xwcFull m c j

/-- Row `r` of block `t`: its point is `t`, its place in the block `r − 256 t`. -/
theorem ptOf_eq (t : Fin cfg0.N) (r : Fin 8192) (h : 256 * t.val ≤ r.val ∧ r.val < 256 * t.val + 256) : ptOf r = t :=
  Fin.ext (by show r.val / 256 = t.val; omega)
theorem rowIn_eq (t : Fin cfg0.N) (r : Fin 8192) (h : 256 * t.val ≤ r.val ∧ r.val < 256 * t.val + 256) :
    rowIn r = (⟨r.val - 256 * t.val, by omega⟩ : Fin 256) :=
  Fin.ext (by show r.val % 256 = r.val - 256 * t.val; omega)

/-- Point `t`'s store makes block `t`'s degree rows final. -/
theorem DegOk_step (c : Dev nD) (t : Fin cfg0.N) (d : Vec F S8192x1 .f32) (h : DegOk m c t.val d) :
    DegOk m c (t.val + 1) (updDeg t.val d (k0_pay4 (ablk m c t))) := by
  intro j hj
  unfold updDeg
  split
  · next hb =>
    unfold degFull
    rw [ptOf_eq t (j 0) hb, rowIn_eq t (j 0) hb]
  · next hb => exact h j (by omega)

/-- Point `t`'s store makes block `t`'s skip rows final. -/
theorem XwcOk_step (c : Dev nD) (t : Fin cfg0.N) (d : Vec F S8192x128 .f32) (h : XwcOk m c t.val d) :
    XwcOk m c (t.val + 1) (updXwc t.val d (k0_pay5 (xblk m c t) (wcblk m c t) (bcblk m c t))) := by
  intro j hj
  unfold updXwc
  split
  · next hb =>
    unfold xwcFull
    rw [ptOf_eq t (j 0) hb, rowIn_eq t (j 0) hb]
  · next hb => exact h j (by omega)

/-- After 32 blocks every row is final. -/
theorem DegOk_full (c : Dev nD) (d : Vec F S8192x1 .f32) (h : DegOk m c 32 d) : d = degFull m c :=
  funext fun j => h j (by have : (j 0).val < 8192 := (j 0).isLt; omega)
theorem XwcOk_full (c : Dev nD) (d : Vec F S8192x128 .f32) (h : XwcOk m c 32 d) : d = xwcFull m c :=
  funext fun j => h j (by have : (j 0).val < 8192 := (j 0).isLt; omega)

/-- The aggregation after the first point, and after a later one. -/
theorem aggAt_first (c : Dev nD) (t : Fin cfg0.N) (h : t.val = 0) :
    aggAt m c t.val t.isLt = k0_pay6 (ablk m c t) (xblk m c t) (k0_pay3 (F := F)) := by
  obtain ⟨n, hn⟩ := t
  cases n with
  | zero => rfl
  | succ n => exact absurd h (Nat.succ_ne_zero n)
theorem aggAt_next (c : Dev nD) (t : Fin cfg0.N) (h : t.val ≠ 0) :
    aggAt m c t.val t.isLt = k0_pay6 (ablk m c t) (xblk m c t) (aggAt m c (t.val - 1) (by have := t.isLt; omega)) := by
  obtain ⟨n, hn⟩ := t
  cases n with
  | zero => exact absurd rfl h
  | succ n => rfl

/-! ## The invariant -/

/-- Before point `n`: at the first point the class's invariant (every scratch at anything); afterwards the aggregation at
    the products so far, the degrees and the skip values final below row `256 n`, the generator register at some state. -/
def PhiS (c : Dev nD) : (n : ℕ) → n ≤ cfg0.N → sProp 𝕄
  | 0, _ => Pipeline.ΦA spec0 c
  | n + 1, hn => iprop(iprop(owns (c : Thread nD τ) scAgg fullShare (aggAt m c n hn) ∗ (∃ d, ⌜DegOk m c (n + 1) d⌝ ∗ owns (c : Thread nD τ) scDeg fullShare d) ∗ (∃ d, ⌜XwcOk m c (n + 1) d⌝ ∗ owns (c : Thread nD τ) scXwc fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAgg fullShare (aggAt m c n hn) ∗ (∃ d, ⌜DegOk m c (n + 1) d⌝ ∗ owns (c : Thread nD τ) scDeg fullShare d) ∗ (∃ d, ⌜XwcOk m c (n + 1) d⌝ ∗ owns (c : Thread nD τ) scXwc fullShare d)) ∗ (∃ r, prngReg c r)) := rfl

theorem PhiS_pos (c : Dev nD) (n : ℕ) (h : n ≤ cfg0.N) (hz : n ≠ 0) :
    PhiS m c n h = iprop(iprop(owns (c : Thread nD τ) scAgg fullShare (aggAt m c (n - 1) (by omega)) ∗ (∃ d, ⌜DegOk m c n d⌝ ∗ owns (c : Thread nD τ) scDeg fullShare d) ∗ (∃ d, ⌜XwcOk m c n d⌝ ∗ owns (c : Thread nD τ) scXwc fullShare d)) ∗ (∃ r, prngReg c r)) := by
  cases n with
  | zero => exact absurd rfl hz
  | succ n => rfl

/-! ## The pipeline's proof data -/

/-- The arrays as the region finds them; after the body each input's buffer at its block, the output's at the final
    activations (it is idle before the last point); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outFull m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outFull m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The inputs' buffers after the body, as plain ownership. -/
theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_2 (c : Dev nD) (t : Fin cfg0.N) :
    (dats m 0 c).leavesExact 2 t = owns (c : Thread nD τ) (ms2 t) fullShare (iblk m c 2 t) := by
  unfold Dat.leavesExact; rw [live2 t, after_2]
theorem leaves_3 (c : Dev nD) (t : Fin cfg0.N) :
    (dats m 0 c).leavesExact 3 t = owns (c : Thread nD τ) (ms3 t) fullShare (iblk m c 3 t) := by
  unfold Dat.leavesExact; rw [live3 t, after_3]
theorem leaves_4 (c : Dev nD) (t : Fin cfg0.N) :
    (dats m 0 c).leavesExact 4 t = owns (c : Thread nD τ) (ms4 t) fullShare (iblk m c 4 t) := by
  unfold Dat.leavesExact; rw [live4 t, after_4]
theorem leaves_5 (c : Dev nD) (t : Fin cfg0.N) :
    (dats m 0 c).leavesExact 5 t = owns (c : Thread nD τ) (ms5 t) fullShare (iblk m c 5 t) := by
  unfold Dat.leavesExact; rw [live5 t, after_5]
theorem leaves_6 (c : Dev nD) (t : Fin cfg0.N) :
    (dats m 0 c).leavesExact 6 t = owns (c : Thread nD τ) (ms6 t) fullShare (iblk m c 6 t) := by
  unfold Dat.leavesExact; rw [live6 t, after_6]
theorem leaves_7 (c : Dev nD) (t : Fin cfg0.N) :
    (dats m 0 c).leavesExact 7 t = owns (c : Thread nD τ) (ms7 t) fullShare (iblk m c 7 t) := by
  unfold Dat.leavesExact; rw [live7 t, after_7]
/-- The output's buffer before the last point: handed back as found. -/
theorem leaves_8_idle (c : Dev nD) (t : Fin cfg0.N) (h1 : ¬ t.val % 32 = 31) :
    (dats m 0 c).leavesExact 8 t = iprop(∃ d, owns (c : Thread nD τ) (ms8 t) fullShare ((dats m 0 c).before 8 t d)) :=
  Dat.leavesExact_idle _ 8 t ((idle8 t).mpr h1) ((noflush8 t).mpr h1)
/-- The output's buffer at the last point: the final activations. -/
theorem leaves_8_last (c : Dev nD) (t : Fin cfg0.N) (h1 : t.val % 32 = 31) :
    (dats m 0 c).leavesExact 8 t = owns (c : Thread nD τ) (ms8 t) fullShare (outFull m c) := by
  unfold Dat.leavesExact; rw [(live8 t).mpr h1, after_8]

end Cert.Kernel.Carry

end
-- ==== Proof.KernelRunA.lean ====
/-
  The body at the first point: it resets the aggregation scratch to zero, overwrites the first block's rows of the
  degree and skip scratches, and adds the block's product to the (zero) aggregation; the output's buffer is not touched.
-/
import proofs.«177865_j88742614270232_1_alg».proof.Proof.KernelShared

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at the first point runs to the continuation holding the inputs and the output's buffer as they were, the
    aggregation at `0 + A_blkᵀ X_blk`, the degrees and the skip values with the block's rows overwritten. -/
theorem runA (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : cond0 i) (hc1 : ¬cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 x1 x0 (k0_pay3 (F := F))) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    clear hf0 hf1 hf2 hf3 hf4 hf5 hf6 hf7 hf8 hfs0 hfs1 hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      rw [read_store_whole (S := S8192x128) hz2, View.readCov_unit_zero (S := S8192x128) _ hz2]
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.Kernel.Carry

end
-- ==== Proof.KernelRunB.lean ====
/-
  The body at a middle point (neither the first nor the last): it overwrites the block's rows of the degree and skip
  scratches and adds the block's product to the aggregation scratch; the output's buffer is not touched.
-/
import proofs.«177865_j88742614270232_1_alg».proof.Proof.KernelShared

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at a middle point runs to the continuation holding the inputs and the output's buffer as they were, the
    aggregation at `xs0 + A_blkᵀ X_blk`, the degrees and the skip values with the block's rows overwritten. -/
theorem runB (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : ¬cond0 i) (hc1 : ¬cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 x1 x0 xs0) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      exact read_store_whole (S := S8192x128) hz2 _ arg10 _ _ _
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.Kernel.Carry

end
-- ==== Proof.KernelRunC.lean ====
/-
  The body at the last point: as at a middle point, and then the epilogue — from the three scratches, now complete, it
  computes the normalised, batch-normalised, rectified activations and stores them whole into the output's buffer.
-/
import proofs.«177865_j88742614270232_1_alg».proof.Proof.KernelShared

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at the last point runs to the continuation holding the inputs as they were, the three scratches updated as at
    a middle point, and the output's buffer at the epilogue's value of the updated scratches. -/
theorem runC (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : ¬cond0 i) (hc1 : cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay1 (k0_pay2 (stDeg arg11 harg11 i xs1 (k0_pay4 x1)) (k0_pay6 x1 x0 xs0) x2 x3 (stXwc arg12 harg12 i xs2 (k0_pay5 x0 x4 x5)) x6) x7) ∗ owns (c : Thread nD τ) arg10 fullShare (k0_pay6 x1 x0 xs0) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    clear hf0 hf1 hf2 hf3 hf4 hf5 hf6 hf7 hf8 hfs0 hfs1 hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      sl_unfold_run_names
      simp only [readAt_whole (S := S256x128) hz2, readAt_whole (S := S256x8192) hz2, readAt_whole (S := S128x128) hz2, readAt_whole (S := S1x128) hz2, readAt_whole (S := S8192x128) hz2, readAt_whole (S := S8192x1) hz2]
      rw [read_store_whole (S := S8192x128) hz2, readAt_whole_any (S := S8192x1) hz2, readAt_whole_any (S := S8192x128) hz2,
        View.readCov_unit_zero (S := S8192x128) _ hz2]
      unfold stDeg stXwc; rfl
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      exact read_store_whole (S := S8192x128) hz2 _ arg10 _ _ _
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.Kernel.Carry

end
-- ==== Proof.KernelBody.lean ====
/-
  The body obligation at every point, from the three cases' runs; the launch; and the frame.

  At each point the invariant hands the body the three scratches — at the first point at anything, later with the
  aggregation at the products so far and the degree and skip rows final below row `256 t` —, the body's stores extend
  the final rows by block `t`, and at the last point all 8192 rows are final, so the stored activations are the final
  ones.  The launch theorem then gives every array after the run: the inputs unchanged, the output the final activations.
-/
import proofs.«177865_j88742614270232_1_alg».proof.Proof.KernelData
import proofs.«177865_j88742614270232_1_alg».proof.Proof.KernelRunA
import proofs.«177865_j88742614270232_1_alg».proof.Proof.KernelRunB
import proofs.«177865_j88742614270232_1_alg».proof.Proof.KernelRunC

set_option maxRecDepth 16384

noncomputable section

namespace Cert.Kernel.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last point stores is the final activations, once block 31's rows have made the scratches complete. -/
theorem out_last (c : Dev nD) (t : Fin cfg0.N) (h1 : t.val % 32 = 31) (hz : t.val ≠ 0) (d1 : Vec F S8192x1 .f32)
    (d2 : Vec F S8192x128 .f32) (hd1 : DegOk m c t.val d1) (hd2 : XwcOk m c t.val d2) :
    k0_pay1 (k0_pay2 (stDeg scDeg (Memref.isWhole_whole _) (grid0.coords t) d1 (k0_pay4 (ablk m c t)))
        (k0_pay6 (ablk m c t) (xblk m c t) (aggAt m c (t.val - 1) (by have := t.isLt; omega))) (wnblk m c t) (bnblk m c t)
        (stXwc scXwc (Memref.isWhole_whole _) (grid0.coords t) d2 (k0_pay5 (xblk m c t) (wcblk m c t) (bcblk m c t))) (gmblk m c t))
      (btblk m c t) = outFull m c := by
  have hN : t.val < 32 := lt_of_lt_of_eq t.isLt N_eq
  have ht : t = tLast := Fin.ext (by show t.val = 31; omega)
  have e1 := DegOk_full m c _ (by have := DegOk_step m c t d1 hd1; rwa [show t.val + 1 = 32 by omega] at this)
  have e2 := XwcOk_full m c _ (by have := XwcOk_step m c t d2 hd2; rwa [show t.val + 1 = 32 by omega] at this)
  rw [stDeg_eq, stXwc_eq, e1, e2, ← aggAt_next m c t hz]
  subst ht; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7]
  have hN : t.val < 32 := lt_of_lt_of_eq t.isLt N_eq
  by_cases h0 : t.val % 32 = 0
  · have h1 : ¬ t.val % 32 = 31 := by omega
    have hz : t.val = 0 := by omega
    rw [leaves_8_idle m c t h1, PhiS_castSucc m c t, PhiS_zero m c _ _ hz, PhiA_eq]
    iintro ⟨⟨⟨⟨%a0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (runA c (grid0.coords t) _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) ((dats m 0 c).before 8 t e8) a0 d1 d2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · rw [aggAt_first m c t hz]; iexact HS0
        isplitl [HS1]
        · iexists _; isplitr; swap; · iexact HS1
          ipureintro; rw [stDeg_eq]; exact DegOk_step m c t d1 (fun j hj => by rw [hz] at hj; omega)
        iexists _; isplitr; swap; · iexact HS2
        ipureintro; rw [stXwc_eq]; exact XwcOk_step m c t d2 (fun j hj => by rw [hz] at hj; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 32 = 31
    · rw [leaves_8_last m c t h1, PhiS_castSucc m c t, PhiS_pos m c _ _ hz]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runC c (grid0.coords t) _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) ((dats m 0 c).before 8 t e8) (aggAt m c (t.val - 1) (by omega)) d1 d2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · rw [aggAt_next m c t hz]; iexact HS0
          isplitl [HS1]
          · iexists _; isplitr; swap; · iexact HS1
            ipureintro; rw [stDeg_eq]; exact DegOk_step m c t d1 hd1
          iexists _; isplitr; swap; · iexact HS2
          ipureintro; rw [stXwc_eq]; exact XwcOk_step m c t d2 hd2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← out_last m c t h1 hz d1 d2 hd1 hd2]; iexact H8
    · rw [leaves_8_idle m c t h1, PhiS_castSucc m c t, PhiS_pos m c _ _ hz]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runB c (grid0.coords t) _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) ((dats m 0 c).before 8 t e8) (aggAt m c (t.val - 1) (by omega)) d1 d2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · rw [aggAt_next m c t hz]; iexact HS0
          isplitl [HS1]
          · iexists _; isplitr; swap; · iexact HS1
            ipureintro; rw [stDeg_eq]; exact DegOk_step m c t d1 hd1
          iexists _; isplitr; swap; · iexact HS2
          ipureintro; rw [stXwc_eq]; exact XwcOk_step m c t d2 hd2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_eq; omega), PhiA_eq]
  iintro ⟨⟨HS0, ⟨%d1, -, HS1⟩, ⟨%d2, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has each array of the pipeline at what the
    proof data computes (the inputs unchanged, the output written back at the last point) and every other unscoped
    buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Carry

end
-- ==== Proof.KernelIdealState.lean ====
/-
  What the kernel keeps in its three scratch buffers, point by point, and what it finally stores.

  The grid walks the 32 row blocks (256 rows each) of the node features `X` and of the adjacency matrix `A`.
  At point `t` the body
    * overwrites rows `[256 t, 256 t + 256)` of the degree scratch with the row sums of `A`'s block,
    * overwrites the same rows of the skip scratch with `X_blk · W_cᵀ + b_c`,
    * adds `A_blkᵀ · X_blk` to the aggregation scratch (reset to zero at the first point),
  and at the last point it computes the normalised, batch-normalised, rectified output from the three
  scratches.  The definitions below name these contents as functions of the blocks the pipeline stages,
  at any float instance.
-/
import proofs.«177865_j88742614270232_1_alg».proof.Proof.Gen.KernelIdeal.Frame
import proofs.«177865_j88742614270232_1_alg».proof.Proof.Gen.KernelIdeal.Skeleton
import Idealize.ShloMosaic.Lib.ValueIdx

noncomputable section

namespace Cert.KernelIdeal.Carry

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The staged blocks at a point, at their literal types. -/
abbrev xblk (c : Dev nD) (t : Fin cfg0.N) : Vec F S256x128 .f32 := iblk m c 0 t
abbrev ablk (c : Dev nD) (t : Fin cfg0.N) : Vec F S256x8192 .f32 := iblk m c 1 t
abbrev wnblk (c : Dev nD) (t : Fin cfg0.N) : Vec F S128x128 .f32 := iblk m c 2 t
abbrev bnblk (c : Dev nD) (t : Fin cfg0.N) : Vec F S1x128 .f32 := iblk m c 3 t
abbrev wcblk (c : Dev nD) (t : Fin cfg0.N) : Vec F S128x128 .f32 := iblk m c 4 t
abbrev bcblk (c : Dev nD) (t : Fin cfg0.N) : Vec F S1x128 .f32 := iblk m c 5 t
abbrev gmblk (c : Dev nD) (t : Fin cfg0.N) : Vec F S1x128 .f32 := iblk m c 6 t
abbrev btblk (c : Dev nD) (t : Fin cfg0.N) : Vec F S1x128 .f32 := iblk m c 7 t

/-- The grid has 32 points. -/
theorem N_eq : cfg0.N = 32 := N_0

/-- The point whose block holds row `r`. -/
def ptOf (r : Fin 8192) : Fin cfg0.N := ⟨r.val / 256, lt_of_lt_of_eq (by have := r.isLt; omega : r.val / 256 < 32) N_eq.symm⟩

/-- Row `r`'s position inside its block. -/
def rowIn (r : Fin 8192) : Fin 256 := ⟨r.val % 256, Nat.mod_lt _ (by decide)⟩

/-- The aggregation scratch after point `n`: zero plus the blocks' products up to `n`. -/
def aggAt (c : Dev nD) : (n : ℕ) → n < cfg0.N → Vec F S8192x128 .f32
  | 0, h => k0_pay6 (ablk m c ⟨0, h⟩) (xblk m c ⟨0, h⟩) (k0_pay3 (F := F))
  | n + 1, h => k0_pay6 (ablk m c ⟨n + 1, h⟩) (xblk m c ⟨n + 1, h⟩) (aggAt c n (Nat.lt_of_succ_lt h))

theorem aggAt_zero (c : Dev nD) (h : 0 < cfg0.N) :
    aggAt m c 0 h = k0_pay6 (ablk m c ⟨0, h⟩) (xblk m c ⟨0, h⟩) (k0_pay3 (F := F)) := rfl

theorem aggAt_succ (c : Dev nD) (n : ℕ) (h : n + 1 < cfg0.N) :
    aggAt m c (n + 1) h = k0_pay6 (ablk m c ⟨n + 1, h⟩) (xblk m c ⟨n + 1, h⟩) (aggAt m c n (Nat.lt_of_succ_lt h)) := rfl

/-- The degree scratch once every point has written its rows: row `r` holds the row sum its block's point computed. -/
def degFull (c : Dev nD) : Vec F S8192x1 .f32 := fun j =>
  k0_pay4 (ablk m c (ptOf (j 0))) (ValueIdx.ix2 (rowIn (j 0)) (j 1))

/-- The skip scratch once every point has written its rows: row `r` holds `X_blk · W_cᵀ + b_c` of its block's point. -/
def xwcFull (c : Dev nD) : Vec F S8192x128 .f32 := fun j =>
  k0_pay5 (xblk m c (ptOf (j 0))) (wcblk m c (ptOf (j 0))) (bcblk m c (ptOf (j 0))) (ValueIdx.ix2 (rowIn (j 0)) (j 1))

/-- The last point. -/
def tLast : Fin cfg0.N := ⟨31, lt_of_lt_of_eq (by decide : 31 < 32) N_eq.symm⟩

/-- What the last point stores into the output's staging buffer: the normalised aggregation through the neighbour
    head, the skip head added, batch-normalised over the rows, scaled, shifted and rectified. -/
def outFull (c : Dev nD) : Vec F S8192x128 .f32 :=
  k0_pay1 (k0_pay2 (degFull m c) (aggAt m c 31 tLast.isLt) (wnblk m c tLast) (bnblk m c tLast) (xwcFull m c) (gmblk m c tLast))
    (btblk m c tLast)

end Cert.KernelIdeal.Carry

end
-- ==== Proof.KernelIdealShared.lean ====
/-
  What the three cases of the body share: the two branch conditions decided over the grid (the reset of the
  aggregation at the first point, the epilogue at the last), where the output window is idle, the staging and
  scratch memrefs, the closed forms of the row offsets (row block `t` starts at row `256 t`), and how a block of
  256 rows overwrites a column or a matrix of 8192 rows.
-/
import proofs.«177865_j88742614270232_1_alg».proof.Proof.KernelIdealState
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first conditional's condition (the aggregation's reset), from the grid coordinates. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 32 = 0 :=
  (by decide +kernel : ∀ t : Fin grid0.N, cond0 (grid0.coords t) ↔ t.val % 32 = 0)

/-- The second conditional's condition (the epilogue). -/
abbrev cond1 (i : grid0.Coords) : Prop := k0_cond2 i = 1#1
/-- It holds at the last point only. -/
theorem hcond1 : ∀ t : Fin cfg0.N, cond1 (grid0.coords t) ↔ t.val % 32 = 31 :=
  (by decide +kernel : ∀ t : Fin grid0.N, cond1 (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The output window is idle at every point but the last, -/
theorem idle8 : ∀ t : Fin cfg0.N, cfg0.idle 8 (grid0.coords t) = true ↔ ¬ t.val % 32 = 31 :=
  (by decide +kernel : ∀ t : Fin grid0.N, cfg0.idle 8 (grid0.coords t) = true ↔ ¬ t.val % 32 = 31)
theorem live8 : ∀ t : Fin cfg0.N, cfg0.idle 8 (grid0.coords t) = false ↔ t.val % 32 = 31 :=
  (by decide +kernel : ∀ t : Fin grid0.N, cfg0.idle 8 (grid0.coords t) = false ↔ t.val % 32 = 31)
/-- and written back there only. -/
theorem noflush8 : ∀ t : Fin cfg0.N, (cfg0.win 8).flush t = false ↔ ¬ t.val % 32 = 31 :=
  (by decide +kernel : ∀ t : Fin grid0.N, win0_8.flush t = false ↔ ¬ t.val % 32 = 31)

/-! ## The memrefs the body is called with -/

abbrev ms0 (t : Fin cfg0.N) : Memref sig .tc .vmem S256x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x8192 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S8192x128 .f32 := win0_8.stage (cfg0.slots t 8)
abbrev hs8 (t : Fin cfg0.N) : (ms8 t).IsWhole := hstage0_8 ((cfg0.slots t 8).cast nbuf0_8)
/-- The scratch operands: the aggregation, the degrees, the skip values. -/
abbrev scAgg : Memref sig .tc .vmem S8192x128 .f32 := Memref.whole cc0_scratch0
abbrev scDeg : Memref sig .tc .vmem S8192x1 .f32 := Memref.whole cc0_scratch1
abbrev scXwc : Memref sig .tc .vmem S8192x128 .f32 := Memref.whole cc0_scratch2

/-- The class invariant with the scratch operands as memrefs owned at some contents. -/
theorem PhiA_eq (c : Dev nD) :
    (Pipeline.ΦA spec0 c : sProp 𝕄)
      = iprop(iprop((∃ d, owns (c : Thread nD τ) scAgg fullShare d) ∗ (∃ d, owns (c : Thread nD τ) scDeg fullShare d) ∗ (∃ d, owns (c : Thread nD τ) scXwc fullShare d)) ∗ (∃ r, prngReg c r)) := by
  unfold Pipeline.ΦA; rw [scopedRest0_eq]; simp only [scAgg, scDeg, scXwc, owns_whole]; try rfl

/-! ## The row offsets -/

/-- The degree store's offsets at point `t`: row `256 t`, column 0. -/
theorem off1_eq : ∀ t : Fin cfg0.N, k0_off1 (grid0.coords t) = ![256 * t.val, 0] :=
  (by decide +kernel : ∀ t : Fin grid0.N, k0_off1 (grid0.coords t) = ![256 * t.val, 0])
/-- The skip store's offsets at point `t`: row `256 t`, column 0. -/
theorem off2_eq : ∀ t : Fin cfg0.N, k0_off2 (grid0.coords t) = ![256 * t.val, 0] :=
  (by decide +kernel : ∀ t : Fin grid0.N, k0_off2 (grid0.coords t) = ![256 * t.val, 0])

/-! ## Whole-buffer loads and stores -/

/-- The zero offsets of a rank-2 buffer, as the body spells them. -/
theorem hz2 : (![0, 0] : Fin 2 → ℕ) = fun _ => 0 :=
  funext fun a => by match a with | ⟨0, _⟩ => rfl | ⟨1, _⟩ => rfl

/-- A load of a whole buffer through the whole-shape rectangle reads its contents. -/
theorem readAt_whole {S : Shape} {e : EltTy} {off : Fin S.rank → ℕ} (hoff : off = fun _ => 0)
    (inb : ∀ a, off a + S.size a ≤ S.size a) (mr : Memref sig .tc .vmem S e) (h : mr.IsWhole) (x : S.Idx → Elt F e) :
    View.readAt (Elt F) mr.view (Rect.unit off S.size inb).toLoadRect (h.unread x) = x := by
  rw [View.readAt_eq_ld, h.read_unread, View.ld_unit_zero hoff]

/-- A load through the whole-shape rectangle reads the buffer whatever it holds. -/
theorem readAt_whole_any {S : Shape} {e : EltTy} {off : Fin S.rank → ℕ} (hoff : off = fun _ => 0)
    (inb : ∀ a, off a + S.size a ≤ S.size a) (mr : Memref sig .tc .vmem S e) (f : mr.view.ty.Contents (Elt F)) :
    View.readAt (Elt F) mr.view (Rect.unit off S.size inb).toLoadRect f = mr.view.read (Elt F) f := by
  rw [View.readAt_eq_ld, View.ld_unit_zero hoff]

/-- A store through the whole-shape rectangle, last, leaves its payload whatever was stored before. -/
theorem read_store_whole {S : Shape} {e : EltTy} {off : Fin S.rank → ℕ} (hoff : off = fun _ => 0)
    (inb : ∀ a, off a + S.size a ≤ S.size a) (mr : Memref sig .tc .vmem S e) (f : mr.view.ty.Contents (Elt F))
    (w : S.Idx → Elt F e) (L : List (View.Piece (Elt F) S e)) :
    mr.view.read (Elt F) (mr.view.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

/-! ## A block of rows written over a buffer -/

/-- What a buffer of 8192 degree rows reads after the rows of block `i` were stored over contents `xs`. -/
def stDeg (mr : Memref sig .tc .vmem S8192x1 .f32) (h : mr.IsWhole) (i : grid0.Coords) (xs : Vec F S8192x1 .f32)
    (v : FVec F S256x1 .f32) : Vec F S8192x1 .f32 :=
  mr.view.read (Elt F) (mr.view.writes (Elt F) (h.unread xs)
    [⟨Rect.unit (s := S8192x1) (k0_off1 i) S256x1.size (k0_off1_inb i), v⟩])

/-- What a buffer of 8192 skip rows reads after the rows of block `i` were stored over contents `xs`. -/
def stXwc (mr : Memref sig .tc .vmem S8192x128 .f32) (h : mr.IsWhole) (i : grid0.Coords) (xs : Vec F S8192x128 .f32)
    (v : FVec F S256x128 .f32) : Vec F S8192x128 .f32 :=
  mr.view.read (Elt F) (mr.view.writes (Elt F) (h.unread xs)
    [⟨Rect.unit (s := S8192x128) (k0_off2 i) S256x128.size (k0_off2_inb i), v⟩])

/-- Rows `[256 t, 256 t + 256)` of `xs` replaced by `v`. -/
def updDeg (t : ℕ) (xs : Vec F S8192x1 .f32) (v : FVec F S256x1 .f32) : Vec F S8192x1 .f32 := fun j =>
  if h : 256 * t ≤ (j 0).val ∧ (j 0).val < 256 * t + 256 then
    v (ValueIdx.ix2 (⟨(j 0).val - 256 * t, by omega⟩ : Fin 256) (j 1))
  else xs j

/-- Rows `[256 t, 256 t + 256)` of `xs` replaced by `v`. -/
def updXwc (t : ℕ) (xs : Vec F S8192x128 .f32) (v : FVec F S256x128 .f32) : Vec F S8192x128 .f32 := fun j =>
  if h : 256 * t ≤ (j 0).val ∧ (j 0).val < 256 * t + 256 then
    v (ValueIdx.ix2 (⟨(j 0).val - 256 * t, by omega⟩ : Fin 256) (j 1))
  else xs j

/-- The store at point `t` replaces the rows of block `t`. -/
theorem stDeg_eq (mr : Memref sig .tc .vmem S8192x1 .f32) (h : mr.IsWhole) (t : Fin cfg0.N) (xs : Vec F S8192x1 .f32)
    (v : FVec F S256x1 .f32) : stDeg mr h (grid0.coords t) xs v = updDeg t.val xs v := by
  funext j
  unfold stDeg updDeg
  rw [View.read_writes_cons_rows mr.view (h.unread xs) (k0_off1_inb (grid0.coords t)) v [] j (off1_eq t) (W := 256) rfl rfl]
  split
  · next hj =>
    refine congrArg v (funext fun a => Fin.ext ?_)
    match a with
    | ⟨0, _⟩ => rfl
    | ⟨1, _⟩ => exact Nat.sub_zero _
  · rw [View.writes_nil, h.read_unread]

/-- The store at point `t` replaces the rows of block `t`. -/
theorem stXwc_eq (mr : Memref sig .tc .vmem S8192x128 .f32) (h : mr.IsWhole) (t : Fin cfg0.N) (xs : Vec F S8192x128 .f32)
    (v : FVec F S256x128 .f32) : stXwc mr h (grid0.coords t) xs v = updXwc t.val xs v := by
  funext j
  unfold stXwc updXwc
  rw [View.read_writes_cons_rows mr.view (h.unread xs) (k0_off2_inb (grid0.coords t)) v [] j (off2_eq t) (W := 256) rfl rfl]
  split
  · next hj =>
    refine congrArg v (funext fun a => Fin.ext ?_)
    match a with
    | ⟨0, _⟩ => rfl
    | ⟨1, _⟩ => exact Nat.sub_zero _
  · rw [View.writes_nil, h.read_unread]

end Cert.KernelIdeal.Carry

end
-- ==== Proof.KernelIdealData.lean ====
/-
  The frame of the one pallas_call, with the scratch buffers' contents carried point by point.

  Before point `n ≥ 1` the aggregation scratch holds the blocks' products up to point `n − 1`, and the degree and skip
  scratches hold their final rows on the blocks already visited (rows below `256 n`) and anything on the others.  Each
  point re-establishes this one block further; after the last point (8192 = 32 · 256 rows) the two are complete, which is
  what the epilogue reads, so the output's staging buffer — idle until then — holds the final activations and is
  written back whole.
-/
import proofs.«177865_j88742614270232_1_alg».proof.Proof.KernelIdealShared

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows already final -/

/-- `d` holds the final degrees on the rows below `256 n`. -/
def DegOk (c : Dev nD) (n : ℕ) (d : Vec F S8192x1 .f32) : Prop :=
  ∀ j : S8192x1.Idx, (j 0).val < 256 * n → d j = degFull m c j

/-- `d` holds the final skip values on the rows below `256 n`. -/
def XwcOk (c : Dev nD) (n : ℕ) (d : Vec F S8192x128 .f32) : Prop :=
  ∀ j : S8192x128.Idx, (j 0).val < 256 * n → d j = xwcFull m c j

/-- Row `r` of block `t`: its point is `t`, its place in the block `r − 256 t`. -/
theorem ptOf_eq (t : Fin cfg0.N) (r : Fin 8192) (h : 256 * t.val ≤ r.val ∧ r.val < 256 * t.val + 256) : ptOf r = t :=
  Fin.ext (by show r.val / 256 = t.val; omega)
theorem rowIn_eq (t : Fin cfg0.N) (r : Fin 8192) (h : 256 * t.val ≤ r.val ∧ r.val < 256 * t.val + 256) :
    rowIn r = (⟨r.val - 256 * t.val, by omega⟩ : Fin 256) :=
  Fin.ext (by show r.val % 256 = r.val - 256 * t.val; omega)

/-- Point `t`'s store makes block `t`'s degree rows final. -/
theorem DegOk_step (c : Dev nD) (t : Fin cfg0.N) (d : Vec F S8192x1 .f32) (h : DegOk m c t.val d) :
    DegOk m c (t.val + 1) (updDeg t.val d (k0_pay4 (ablk m c t))) := by
  intro j hj
  unfold updDeg
  split
  · next hb =>
    unfold degFull
    rw [ptOf_eq t (j 0) hb, rowIn_eq t (j 0) hb]
  · next hb => exact h j (by omega)

/-- Point `t`'s store makes block `t`'s skip rows final. -/
theorem XwcOk_step (c : Dev nD) (t : Fin cfg0.N) (d : Vec F S8192x128 .f32) (h : XwcOk m c t.val d) :
    XwcOk m c (t.val + 1) (updXwc t.val d (k0_pay5 (xblk m c t) (wcblk m c t) (bcblk m c t))) := by
  intro j hj
  unfold updXwc
  split
  · next hb =>
    unfold xwcFull
    rw [ptOf_eq t (j 0) hb, rowIn_eq t (j 0) hb]
  · next hb => exact h j (by omega)

/-- After 32 blocks every row is final. -/
theorem DegOk_full (c : Dev nD) (d : Vec F S8192x1 .f32) (h : DegOk m c 32 d) : d = degFull m c :=
  funext fun j => h j (by have : (j 0).val < 8192 := (j 0).isLt; omega)
theorem XwcOk_full (c : Dev nD) (d : Vec F S8192x128 .f32) (h : XwcOk m c 32 d) : d = xwcFull m c :=
  funext fun j => h j (by have : (j 0).val < 8192 := (j 0).isLt; omega)

/-- The aggregation after the first point, and after a later one. -/
theorem aggAt_first (c : Dev nD) (t : Fin cfg0.N) (h : t.val = 0) :
    aggAt m c t.val t.isLt = k0_pay6 (ablk m c t) (xblk m c t) (k0_pay3 (F := F)) := by
  obtain ⟨n, hn⟩ := t
  cases n with
  | zero => rfl
  | succ n => exact absurd h (Nat.succ_ne_zero n)
theorem aggAt_next (c : Dev nD) (t : Fin cfg0.N) (h : t.val ≠ 0) :
    aggAt m c t.val t.isLt = k0_pay6 (ablk m c t) (xblk m c t) (aggAt m c (t.val - 1) (by have := t.isLt; omega)) := by
  obtain ⟨n, hn⟩ := t
  cases n with
  | zero => exact absurd rfl h
  | succ n => rfl

/-! ## The invariant -/

/-- Before point `n`: at the first point the class's invariant (every scratch at anything); afterwards the aggregation at
    the products so far, the degrees and the skip values final below row `256 n`, the generator register at some state. -/
def PhiS (c : Dev nD) : (n : ℕ) → n ≤ cfg0.N → sProp 𝕄
  | 0, _ => Pipeline.ΦA spec0 c
  | n + 1, hn => iprop(iprop(owns (c : Thread nD τ) scAgg fullShare (aggAt m c n hn) ∗ (∃ d, ⌜DegOk m c (n + 1) d⌝ ∗ owns (c : Thread nD τ) scDeg fullShare d) ∗ (∃ d, ⌜XwcOk m c (n + 1) d⌝ ∗ owns (c : Thread nD τ) scXwc fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scAgg fullShare (aggAt m c n hn) ∗ (∃ d, ⌜DegOk m c (n + 1) d⌝ ∗ owns (c : Thread nD τ) scDeg fullShare d) ∗ (∃ d, ⌜XwcOk m c (n + 1) d⌝ ∗ owns (c : Thread nD τ) scXwc fullShare d)) ∗ (∃ r, prngReg c r)) := rfl

theorem PhiS_pos (c : Dev nD) (n : ℕ) (h : n ≤ cfg0.N) (hz : n ≠ 0) :
    PhiS m c n h = iprop(iprop(owns (c : Thread nD τ) scAgg fullShare (aggAt m c (n - 1) (by omega)) ∗ (∃ d, ⌜DegOk m c n d⌝ ∗ owns (c : Thread nD τ) scDeg fullShare d) ∗ (∃ d, ⌜XwcOk m c n d⌝ ∗ owns (c : Thread nD τ) scXwc fullShare d)) ∗ (∃ r, prngReg c r)) := by
  cases n with
  | zero => exact absurd rfl hz
  | succ n => rfl

/-! ## The pipeline's proof data -/

/-- The arrays as the region finds them; after the body each input's buffer at its block, the output's at the final
    activations (it is idle before the last point); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outFull m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outFull m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The inputs' buffers after the body, as plain ownership. -/
theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_2 (c : Dev nD) (t : Fin cfg0.N) :
    (dats m 0 c).leavesExact 2 t = owns (c : Thread nD τ) (ms2 t) fullShare (iblk m c 2 t) := by
  unfold Dat.leavesExact; rw [live2 t, after_2]
theorem leaves_3 (c : Dev nD) (t : Fin cfg0.N) :
    (dats m 0 c).leavesExact 3 t = owns (c : Thread nD τ) (ms3 t) fullShare (iblk m c 3 t) := by
  unfold Dat.leavesExact; rw [live3 t, after_3]
theorem leaves_4 (c : Dev nD) (t : Fin cfg0.N) :
    (dats m 0 c).leavesExact 4 t = owns (c : Thread nD τ) (ms4 t) fullShare (iblk m c 4 t) := by
  unfold Dat.leavesExact; rw [live4 t, after_4]
theorem leaves_5 (c : Dev nD) (t : Fin cfg0.N) :
    (dats m 0 c).leavesExact 5 t = owns (c : Thread nD τ) (ms5 t) fullShare (iblk m c 5 t) := by
  unfold Dat.leavesExact; rw [live5 t, after_5]
theorem leaves_6 (c : Dev nD) (t : Fin cfg0.N) :
    (dats m 0 c).leavesExact 6 t = owns (c : Thread nD τ) (ms6 t) fullShare (iblk m c 6 t) := by
  unfold Dat.leavesExact; rw [live6 t, after_6]
theorem leaves_7 (c : Dev nD) (t : Fin cfg0.N) :
    (dats m 0 c).leavesExact 7 t = owns (c : Thread nD τ) (ms7 t) fullShare (iblk m c 7 t) := by
  unfold Dat.leavesExact; rw [live7 t, after_7]
/-- The output's buffer before the last point: handed back as found. -/
theorem leaves_8_idle (c : Dev nD) (t : Fin cfg0.N) (h1 : ¬ t.val % 32 = 31) :
    (dats m 0 c).leavesExact 8 t = iprop(∃ d, owns (c : Thread nD τ) (ms8 t) fullShare ((dats m 0 c).before 8 t d)) :=
  Dat.leavesExact_idle _ 8 t ((idle8 t).mpr h1) ((noflush8 t).mpr h1)
/-- The output's buffer at the last point: the final activations. -/
theorem leaves_8_last (c : Dev nD) (t : Fin cfg0.N) (h1 : t.val % 32 = 31) :
    (dats m 0 c).leavesExact 8 t = owns (c : Thread nD τ) (ms8 t) fullShare (outFull m c) := by
  unfold Dat.leavesExact; rw [(live8 t).mpr h1, after_8]

end Cert.KernelIdeal.Carry

end
-- ==== Proof.KernelIdealRunA.lean ====
/-
  The body at the first point: it resets the aggregation scratch to zero, overwrites the first block's rows of the
  degree and skip scratches, and adds the block's product to the (zero) aggregation; the output's buffer is not touched.
-/
import proofs.«177865_j88742614270232_1_alg».proof.Proof.KernelIdealShared

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at the first point runs to the continuation holding the inputs and the output's buffer as they were, the
    aggregation at `0 + A_blkᵀ X_blk`, the degrees and the skip values with the block's rows overwritten. -/
theorem runA (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : cond0 i) (hc1 : ¬cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 x1 x0 (k0_pay3 (F := F))) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    clear hf0 hf1 hf2 hf3 hf4 hf5 hf6 hf7 hf8 hfs0 hfs1 hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      rw [read_store_whole (S := S8192x128) hz2, View.readCov_unit_zero (S := S8192x128) _ hz2]
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.KernelIdeal.Carry

end
-- ==== Proof.KernelIdealRunB.lean ====
/-
  The body at a middle point (neither the first nor the last): it overwrites the block's rows of the degree and skip
  scratches and adds the block's product to the aggregation scratch; the output's buffer is not touched.
-/
import proofs.«177865_j88742614270232_1_alg».proof.Proof.KernelIdealShared

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at a middle point runs to the continuation holding the inputs and the output's buffer as they were, the
    aggregation at `xs0 + A_blkᵀ X_blk`, the degrees and the skip values with the block's rows overwritten. -/
theorem runB (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : ¬cond0 i) (hc1 : ¬cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay6 x1 x0 xs0) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      exact read_store_whole (S := S8192x128) hz2 _ arg10 _ _ _
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.KernelIdeal.Carry

end
-- ==== Proof.KernelIdealRunC.lean ====
/-
  The body at the last point: as at a middle point, and then the epilogue — from the three scratches, now complete, it
  computes the normalised, batch-normalised, rectified activations and stores them whole into the output's buffer.
-/
import proofs.«177865_j88742614270232_1_alg».proof.Proof.KernelIdealShared

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs at their blocks, the output's buffer and the three scratches at given contents — the
    body at the last point runs to the continuation holding the inputs as they were, the three scratches updated as at
    a middle point, and the output's buffer at the epilogue's value of the updated scratches. -/
theorem runC (c : Dev nD) (i : grid0.Coords) (arg1 : Memref sig .tc .vmem S256x128 .f32) (harg1 : arg1.IsWhole) (arg2 : Memref sig .tc .vmem S256x8192 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S8192x128 .f32) (harg9 : arg9.IsWhole) (arg10 : Memref sig .tc .vmem S8192x128 .f32) (harg10 : arg10.IsWhole) (arg11 : Memref sig .tc .vmem S8192x1 .f32) (harg11 : arg11.IsWhole) (arg12 : Memref sig .tc .vmem S8192x128 .f32) (harg12 : arg12.IsWhole) (hc0 : ¬cond0 i) (hc1 : cond1 i)
    (x0 : Vec F S256x128 .f32) (x1 : Vec F S256x8192 .f32) (x2 : Vec F S128x128 .f32) (x3 : Vec F S1x128 .f32) (x4 : Vec F S128x128 .f32) (x5 : Vec F S1x128 .f32) (x6 : Vec F S1x128 .f32) (x7 : Vec F S1x128 .f32) (x8 : Vec F S8192x128 .f32) (xs0 : Vec F S8192x128 .f32) (xs1 : Vec F S8192x1 .f32) (xs2 : Vec F S8192x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xs0 ∗ owns (c : Thread nD τ) arg11 fullShare xs1 ∗ owns (c : Thread nD τ) arg12 fullShare xs2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay1 (k0_pay2 (stDeg arg11 harg11 i xs1 (k0_pay4 x1)) (k0_pay6 x1 x0 xs0) x2 x3 (stXwc arg12 harg12 i xs2 (k0_pay5 x0 x4 x5)) x6) x7) ∗ owns (c : Thread nD τ) arg10 fullShare (k0_pay6 x1 x0 xs0) ∗ owns (c : Thread nD τ) arg11 fullShare (stDeg arg11 harg11 i xs1 (k0_pay4 x1)) ∗ owns (c : Thread nD τ) arg12 fullShare (stXwc arg12 harg12 i xs2 (k0_pay5 x0 x4 x5))) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
    simp only [cc0__kernel_eq_skeleton]; unfold cc0__kernel_skel
    simp only [k0_part2_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1; obtain rfl := harg12.eq_unread hfs2
    clear hf0 hf1 hf2 hf3 hf4 hf5 hf6 hf7 hf8 hfs0 hfs1 hfs2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; swap; · iexact H8
      ipureintro
      sl_unfold_run_names
      simp only [readAt_whole (S := S256x128) hz2, readAt_whole (S := S256x8192) hz2, readAt_whole (S := S128x128) hz2, readAt_whole (S := S1x128) hz2, readAt_whole (S := S8192x128) hz2, readAt_whole (S := S8192x1) hz2]
      rw [read_store_whole (S := S8192x128) hz2, readAt_whole_any (S := S8192x1) hz2, readAt_whole_any (S := S8192x128) hz2,
        View.readCov_unit_zero (S := S8192x128) _ hz2]
      unfold stDeg stXwc; rfl
    isplitl [HS0]
    · iexists _; isplitr; swap; · iexact HS0
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      exact read_store_whole (S := S8192x128) hz2 _ arg10 _ _ _
    isplitl [HS1]
    · iexists _; isplitr; swap; · iexact HS1
      ipureintro
      sl_unfold_words
      simp only [readAt_whole (S := S256x128) hz2, readAt_whole (S := S256x8192) hz2, readAt_whole (S := S128x128) hz2, readAt_whole (S := S1x128) hz2, readAt_whole (S := S8192x128) hz2, readAt_whole (S := S8192x1) hz2]
      unfold stDeg; rfl
    iexists _; isplitr; swap; · iexact HS2
    ipureintro
    sl_unfold_words
    simp only [readAt_whole (S := S256x128) hz2, readAt_whole (S := S256x8192) hz2, readAt_whole (S := S128x128) hz2, readAt_whole (S := S1x128) hz2, readAt_whole (S := S8192x128) hz2, readAt_whole (S := S8192x1) hz2]
    unfold stXwc; rfl

end Cert.KernelIdeal.Carry

end
-- ==== Proof.KernelIdealBody.lean ====
/-
  The body obligation at every point, from the three cases' runs; the launch; and the frame.

  At each point the invariant hands the body the three scratches — at the first point at anything, later with the
  aggregation at the products so far and the degree and skip rows final below row `256 t` —, the body's stores extend
  the final rows by block `t`, and at the last point all 8192 rows are final, so the stored activations are the final
  ones.  The launch theorem then gives every array after the run: the inputs unchanged, the output the final activations.
-/
import proofs.«177865_j88742614270232_1_alg».proof.Proof.KernelIdealData
import proofs.«177865_j88742614270232_1_alg».proof.Proof.KernelIdealRunA
import proofs.«177865_j88742614270232_1_alg».proof.Proof.KernelIdealRunB
import proofs.«177865_j88742614270232_1_alg».proof.Proof.KernelIdealRunC

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last point stores is the final activations, once block 31's rows have made the scratches complete. -/
theorem out_last (c : Dev nD) (t : Fin cfg0.N) (h1 : t.val % 32 = 31) (hz : t.val ≠ 0) (d1 : Vec F S8192x1 .f32)
    (d2 : Vec F S8192x128 .f32) (hd1 : DegOk m c t.val d1) (hd2 : XwcOk m c t.val d2) :
    k0_pay1 (k0_pay2 (stDeg scDeg (Memref.isWhole_whole _) (grid0.coords t) d1 (k0_pay4 (ablk m c t)))
        (k0_pay6 (ablk m c t) (xblk m c t) (aggAt m c (t.val - 1) (by have := t.isLt; omega))) (wnblk m c t) (bnblk m c t)
        (stXwc scXwc (Memref.isWhole_whole _) (grid0.coords t) d2 (k0_pay5 (xblk m c t) (wcblk m c t) (bcblk m c t))) (gmblk m c t))
      (btblk m c t) = outFull m c := by
  have hN : t.val < 32 := lt_of_lt_of_eq t.isLt N_eq
  have ht : t = tLast := Fin.ext (by show t.val = 31; omega)
  have e1 := DegOk_full m c _ (by have := DegOk_step m c t d1 hd1; rwa [show t.val + 1 = 32 by omega] at this)
  have e2 := XwcOk_full m c _ (by have := XwcOk_step m c t d2 hd2; rwa [show t.val + 1 = 32 by omega] at this)
  rw [stDeg_eq, stXwc_eq, e1, e2, ← aggAt_next m c t hz]
  subst ht; rfl

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, leaves_5, leaves_6, leaves_7]
  have hN : t.val < 32 := lt_of_lt_of_eq t.isLt N_eq
  by_cases h0 : t.val % 32 = 0
  · have h1 : ¬ t.val % 32 = 31 := by omega
    have hz : t.val = 0 := by omega
    rw [leaves_8_idle m c t h1, PhiS_castSucc m c t, PhiS_zero m c _ _ hz, PhiA_eq]
    iintro ⟨⟨⟨⟨%a0, HS0⟩, ⟨%d1, HS1⟩, ⟨%d2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
    iapply (runA c (grid0.coords t) _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) ((dats m 0 c).before 8 t e8) a0 d1 d2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    iintro ⟨H0, H1, H2, H3, H4, H5, H6, H7, H8, HS0, HS1, HS2⟩
    isplitl [HS0 HS1 HS2 Hg]
    · isplitl [HS0 HS1 HS2]
      · isplitl [HS0]
        · rw [aggAt_first m c t hz]; iexact HS0
        isplitl [HS1]
        · iexists _; isplitr; swap; · iexact HS1
          ipureintro; rw [stDeg_eq]; exact DegOk_step m c t d1 (fun j hj => by rw [hz] at hj; omega)
        iexists _; isplitr; swap; · iexact HS2
        ipureintro; rw [stXwc_eq]; exact XwcOk_step m c t d2 (fun j hj => by rw [hz] at hj; omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 32 = 31
    · rw [leaves_8_last m c t h1, PhiS_castSucc m c t, PhiS_pos m c _ _ hz]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runC c (grid0.coords t) _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) ((dats m 0 c).before 8 t e8) (aggAt m c (t.val - 1) (by omega)) d1 d2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · rw [aggAt_next m c t hz]; iexact HS0
          isplitl [HS1]
          · iexists _; isplitr; swap; · iexact HS1
            ipureintro; rw [stDeg_eq]; exact DegOk_step m c t d1 hd1
          iexists _; isplitr; swap; · iexact HS2
          ipureintro; rw [stXwc_eq]; exact XwcOk_step m c t d2 hd2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      rw [← out_last m c t h1 hz d1 d2 hd1 hd2]; iexact H8
    · rw [leaves_8_idle m c t h1, PhiS_castSucc m c t, PhiS_pos m c _ _ hz]
      iintro ⟨⟨⟨HS0, ⟨%d1, %hd1, HS1⟩, ⟨%d2, %hd2, HS2⟩⟩, Hg⟩, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩⟩
      iapply (runB c (grid0.coords t) _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) ((dats m 0 c).before 8 t e8) (aggAt m c (t.val - 1) (by omega)) d1 d2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, HS0, HS1, HS2⟩
      isplitl [HS0 HS1 HS2 Hg]
      · isplitl [HS0 HS1 HS2]
        · isplitl [HS0]
          · rw [aggAt_next m c t hz]; iexact HS0
          isplitl [HS1]
          · iexists _; isplitr; swap; · iexact HS1
            ipureintro; rw [stDeg_eq]; exact DegOk_step m c t d1 hd1
          iexists _; isplitr; swap; · iexact HS2
          ipureintro; rw [stXwc_eq]; exact XwcOk_step m c t d2 hd2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratches hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_eq; omega), PhiA_eq]
  iintro ⟨⟨HS0, ⟨%d1, -, HS1⟩, ⟨%d2, -, HS2⟩⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has each array of the pipeline at what the
    proof data computes (the inputs unchanged, the output written back at the last point) and every other unscoped
    buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Carry

end
-- ==== Proof.KernelIdealFinal.lean ====
/-
  The output array after the run, at any float instance: the one write-back (at the last point) writes the whole array,
  so the array ends at the final activations; and the run re-posted with the output named and the arguments unchanged.
-/
import proofs.«177865_j88742614270232_1_alg».proof.Proof.KernelIdealBody

set_option maxRecDepth 16384

noncomputable section

namespace Cert.KernelIdeal.Carry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's one block is the whole array: its block index is (0, 0) at every point. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- What a writing point writes back is the final activations, read through the (whole-array) block. -/
theorem flushed8_eq (c : Dev nD) (t : Fin cfg0.N) :
    (dats m 0 c).flushed 8 t = ((cfg0.win 8).blk t).view.read (Elt F) (outFull m c) := by
  show (cfg0.win 8).cut (grid0.coords t) ((dats m 0 c).after 8 t) = _
  rw [after_8]
  obtain ⟨e0, e1⟩ := idx8 t
  funext j
  show outFull m c j = outFull m c (((cfg0.win 8).blk t).view.emb j)
  refine congrArg (outFull m c) (funext fun a => Fin.ext ?_)
  match a with
  | ⟨0, _⟩ => show (j 0).val = win0_8.index t (0 : Fin 2) * 8192 + 1 * (j 0).val; omega
  | ⟨1, _⟩ => show (j 1).val = win0_8.index t (1 : Fin 2) * 128 + 1 * (j 1).val; omega

/-- Every index of the array is in the last point's block. -/
theorem mem_blk8 (t : Fin cfg0.N) (i : S8192x128.Idx) : i ∈ ((cfg0.win 8).blk t).view.set := by
  show i ∈ ((View.whole main_v4).slice (win0_8.rect t)).set
  rw [View.set_slice_whole, Rect.mem_set_unit]
  obtain ⟨e0, e1⟩ := idx8 t
  intro a
  match a with
  | ⟨0, _⟩ =>
    show win0_8.index t (0 : Fin 2) * 8192 ≤ (i 0).val ∧ (i 0).val < win0_8.index t (0 : Fin 2) * 8192 + 8192
    have : (i 0).val < 8192 := (i 0).isLt
    omega
  | ⟨1, _⟩ =>
    show win0_8.index t (1 : Fin 2) * 128 ≤ (i 1).val ∧ (i 1).val < win0_8.index t (1 : Fin 2) * 128 + 128
    have : (i 1).val < 128 := (i 1).isLt
    omega

/-- The output array after the run. -/
theorem final8 (c : Dev nD) : (dats m 0 c).arrAt 8 cfg0.N = outFull m c :=
  (dats m 0 c).arrAt_eq_of_cover 8 (outFull m c) (fun t _ => flushed8_eq m c t)
    (fun i => ⟨tLast, (flush0_8 tLast).mpr (by decide), mem_blk8 tLast i⟩)

/-- The run with the output array named and the arguments unchanged. -/
theorem run_value : θ_run defs (onTc (τ := τ) (main (F := F))) ⟨m, fun _ => 0, ρ⟩ (fun r => ∀ c : Dev nD,
      r.2.mem ((c.tc : Thread nD τ).loc main_v4) = outFull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Carry

end
-- ==== Proof.Spec.lean ====
/-
  The mathematics both programs compute, over the extended reals, coordinate by coordinate.

  With `A` the adjacency matrix, `X` the node features:
    deg r        = Σ_k A r k                                  (row sums, over a zero start)
    agg n c      = Σ_r A r n · X r c                           (Aᵀ X)
    xwc n o      = Σ_k X n k · W_c o k + b_c o                 (the skip head)
  and, from any degrees `dg`, aggregation `ag` and skip values `xw` (`tail`):
    dsafe n      = 1 if dg n = 0 else dg n
    lin n o      = Σ_k (ag n k / dsafe n) · W_n o k
    h n o        = (lin n o + b_n o) + xw n o
    mean o       = (Σ_n h n o) / 8192,   var o = (Σ_n (h n o − mean o)²) / 8192
    out n o      = max (γ o · ((h n o − mean o) · rsqrt (var o + ε)) + β o) 0.
  Float literals stay as the words both programs print.
-/
import Idealize.ShloMosaic.PureOps.Ideal
import Idealize.ShloMosaic.PureOps.Ideal.Laws

noncomputable section

namespace Cert.Spec

open Idealize.ShloMosaic

/-- The literals the two programs share. -/
abbrev Z : EReal := Ideal.ofBits .f32 0x00000000#32
abbrev One : EReal := Ideal.ofBits .f32 0x3F800000#32
abbrev N8192 : EReal := Ideal.ofBits .f32 0x46000000#32
abbrev Eps : EReal := Ideal.ofBits .f32 0x3727C5AC#32

/-- Row sums of the adjacency matrix. -/
def deg (A : Fin 8192 → Fin 8192 → EReal) (r : Fin 8192) : EReal := Z + ∑ k : Fin 8192, A r k

/-- `Aᵀ X`. -/
def agg (X : Fin 8192 → Fin 128 → EReal) (A : Fin 8192 → Fin 8192 → EReal) (n : Fin 8192) (c : Fin 128) : EReal :=
  ∑ r : Fin 8192, A r n * X r c

/-- The skip head `X W_cᵀ + b_c`. -/
def xwc (X : Fin 8192 → Fin 128 → EReal) (Wc : Fin 128 → Fin 128 → EReal) (bc : Fin 128 → EReal) (n : Fin 8192) (o : Fin 128) : EReal :=
  (∑ k : Fin 128, X n k * Wc o k) + bc o

section Tail

variable (dg : Fin 8192 → EReal) (ag : Fin 8192 → Fin 128 → EReal) (Wn : Fin 128 → Fin 128 → EReal) (bn : Fin 128 → EReal)
  (xw : Fin 8192 → Fin 128 → EReal) (gm bt : Fin 128 → EReal)

/-- A zero degree is replaced by one. -/
def dsafe (n : Fin 8192) : EReal :=
  Scalar.select (FloatOps.cmpf (F := Ideal) (φ := .f32) .oeq (dg n) Z) One (dg n)

/-- The neighbour head of the mean aggregation. -/
def lin (n : Fin 8192) (o : Fin 128) : EReal := ∑ k : Fin 128, Ideal.div (ag n k) (dsafe dg n) * Wn o k

/-- The pre-normalisation activations. -/
def h (n : Fin 8192) (o : Fin 128) : EReal := (lin dg ag Wn n o + bn o) + xw n o

/-- The batch mean of a column. -/
def mean (o : Fin 128) : EReal := Ideal.div (Z + ∑ n : Fin 8192, h dg ag Wn bn xw n o) N8192

/-- The centred activations. -/
def cen (n : Fin 8192) (o : Fin 128) : EReal := h dg ag Wn bn xw n o - mean dg ag Wn bn xw o

/-- The biased batch variance of a column. -/
def var (o : Fin 128) : EReal :=
  Ideal.div (Z + ∑ n : Fin 8192, cen dg ag Wn bn xw n o * cen dg ag Wn bn xw n o) N8192

/-- The output from given degrees, aggregation and skip values. -/
def tail (n : Fin 8192) (o : Fin 128) : EReal :=
  max (gm o * (cen dg ag Wn bn xw n o * Ideal.rsqrt (var dg ag Wn bn xw o + Eps)) + bt o) Z

end Tail

/-- The whole function of the eight arguments. -/
def out (X : Fin 8192 → Fin 128 → EReal) (A : Fin 8192 → Fin 8192 → EReal) (Wn : Fin 128 → Fin 128 → EReal) (bn : Fin 128 → EReal)
    (Wc : Fin 128 → Fin 128 → EReal) (bc gm bt : Fin 128 → EReal) (n : Fin 8192) (o : Fin 128) : EReal :=
  tail (deg A) (agg X A) Wn bn (xwc X Wc bc) gm bt n o

end Cert.Spec

end
-- ==== Proof.KernelIdealTail.lean ====
/-
  The last point's arithmetic at the extended reals, read at a coordinate: from the degrees, the aggregation and the
  skip values it loads, the body forms `ag / dsafe`, multiplies by `W_nᵀ`, adds `b_n` and the skip values, takes each
  column's mean and biased variance over the 8192 rows, normalises, scales by γ, shifts by β and rectifies.
-/
import proofs.«177865_j88742614270232_1_alg».proof.Proof.Gen.KernelIdeal.Skeleton
import proofs.«177865_j88742614270232_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailValue

open Idealize.ShloMosaic Idealize.ShloMosaic.TcCoe Idealize.SL.Sem
open Cert.KernelIdeal Cert.KernelIdeal.Gen
open ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column sums: a sum over axis 0 read at column `o` is the sum over the rows of the entries of that column. -/
theorem colsum_apply (src : FVec Ideal S8192x128 .f32) (o : Fin 128) :
    multiReduction (F := Ideal) .add [0] S128 src 0x00000000#32 reduces_S8192x128_S128 (.inl rfl) rfl (ix1 o)
      = ∑ k : Fin 8192, src (ix2 k o) := by
  refine (Ideal.multiReduction_add_single src _ reduces_S8192x128_S128 (.inl rfl) rfl (ix1 o)).trans ?_
  refine Finset.sum_congr rfl fun k _ => congrArg src (funext fun c => Fin.ext ?_)
  rw [Shape.Reduces.lift_val]
  unfold Shape.Reduces.liftVal
  match c with
  | ⟨0, _⟩ => rfl
  | ⟨1, _⟩ => rfl

/-! ### The product with the transposed weights: the dot's operand indices, axis by axis -/

theorem lhs_dot_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide),
    dif_pos (show (0 : Fin S8192x128.rank) ∈ dot_S8192x128_S128x128_S8192x128_1_0_0_1_n_n.lhsNonContracting by decide)]
  rfl
theorem lhs_dot_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_dot_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_dot_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide),
    dif_pos (show (1 : Fin S128x128.rank) ∈ dot_S8192x128_S128x128_S8192x128_1_0_0_1_n_n.rhsNonContracting by decide)]
  rfl

/-- The matrix product into a zero accumulator, read at `(n, o)`: the sum over the contracted coordinate. -/
theorem matmul_nk_apply (l : FVec Ideal S8192x128 .f32) (r : FVec Ideal S128x128 .f32) (n : Fin 8192) (o : Fin 128) :
    matmul (F := Ideal) dot_S8192x128_S128x128_S8192x128_1_0_0_1_n_n none l r (constant (F := Ideal) S8192x128 .f32 0x00000000#32) (ix2 n o)
      = ∑ k : Fin 128, l (ix2 n k) * r (ix2 k o) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 n o) ((ValueIdx.contrEquiv1 dot_S8192x128_S128x128_S8192x128_1_0_0_1_n_n 128 rfl rfl).symm k) = ix2 n k :=
    funext fun a => Fin.ext (by
      match a with
      | ⟨0, _⟩ => exact lhs_dot_0 _ _
      | ⟨1, _⟩ => exact (lhs_dot_1 _ _).trans hk)
  have er : dot_S8192x128_S128x128_S8192x128_1_0_0_1_n_n.rhsIdx (ix2 n o) ((ValueIdx.contrEquiv1 dot_S8192x128_S128x128_S8192x128_1_0_0_1_n_n 128 rfl rfl).symm k) = ix2 k o :=
    funext fun a => Fin.ext (by
      match a with
      | ⟨0, _⟩ => exact (rhs_dot_0 _ _).trans hk
      | ⟨1, _⟩ => exact rhs_dot_1 _ _)
  rw [el, er]

/-! ### The payload's intermediate vectors, and each read at a coordinate -/

/-- The pre-normalisation activations, as the body forms them. -/
def hvec (dg : FVec Ideal S8192x1 .f32) (ag : FVec Ideal S8192x128 .f32) (wn : FVec Ideal S128x128 .f32)
    (bn : FVec Ideal S1x128 .f32) (xw : FVec Ideal S8192x128 .f32) : FVec Ideal S8192x128 .f32 :=
  addf (addf
    (matmul (F := Ideal) dot_S8192x128_S128x128_S8192x128_1_0_0_1_n_n none
      (divf (F := Ideal) ag (broadcastTo S8192x128
        (select (cmpf (F := Ideal) .oeq dg (broadcast S8192x1 (Scalar.ofBits .f32 0x00000000#32)))
          (broadcast S8192x1 (Scalar.ofBits .f32 0x3F800000#32)) dg) broadcasts_S8192x1_S8192x128))
      (transpose S128x128 [1, 0] wn transposes_S128x128_p1_0_S128x128)
      (constant (F := Ideal) S8192x128 .f32 0x00000000#32))
    (broadcastTo S8192x128 (shapeCast S1x128 bn shapeCasts_S1x128_S1x128) broadcasts_S1x128_S8192x128)) xw

theorem hvec_apply (dg : FVec Ideal S8192x1 .f32) (ag : FVec Ideal S8192x128 .f32) (wn : FVec Ideal S128x128 .f32)
    (bn : FVec Ideal S1x128 .f32) (xw : FVec Ideal S8192x128 .f32) (n : Fin 8192) (o : Fin 128) :
    hvec dg ag wn bn xw (ix2 n o)
      = Cert.Spec.h (fun r => dg (ix2 r (0 : Fin 1))) (fun r k => ag (ix2 r k)) (fun a b => wn (ix2 a b))
          (fun b => bn (ix2 (0 : Fin 1) b)) (fun r k => xw (ix2 r k)) n o := by
  unfold hvec Cert.Spec.h Cert.Spec.lin
  rw [addf_apply, addf_apply, matmul_nk_apply, shapeCast_self, broadcastTo_1b_ab_apply]
  refine congrArg (· + xw (ix2 n o)) (congrArg (· + bn (ix2 (0 : Fin 1) o)) (Finset.sum_congr rfl fun k _ => ?_))
  rw [divf_apply, broadcastTo_a1_ab_apply, transpose_ix2_apply]
  rfl

/-- A column's mean over the 8192 rows, kept as a row. -/
def meanvec (h : FVec Ideal S8192x128 .f32) : FVec Ideal S1x128 .f32 :=
  divf (shapeCast S1x128 (multiReduction .add [0] S128 h 0x00000000#32 reduces_S8192x128_S128 (.inl rfl) rfl) shapeCasts_S128_S1x128)
    (broadcast S1x128 (Scalar.ofBits .f32 0x46000000#32))

theorem meanvec_apply (h : FVec Ideal S8192x128 .f32) (o : Fin 128) :
    meanvec h (ix2 (0 : Fin 1) o)
      = Ideal.div (Ideal.ofBits .f32 0x00000000#32 + ∑ n : Fin 8192, h (ix2 n o)) (Ideal.ofBits .f32 0x46000000#32) := by
  unfold meanvec
  rw [divf_apply, shapeCast_a_1a_apply, colsum_apply, Ideal.ofBits_zero_f32, zero_add]
  exact rfl

/-- The centred activations. -/
def cenvec (h : FVec Ideal S8192x128 .f32) : FVec Ideal S8192x128 .f32 :=
  subf h (broadcastTo S8192x128 (meanvec h) broadcasts_S1x128_S8192x128)

theorem cenvec_apply (h : FVec Ideal S8192x128 .f32) (n : Fin 8192) (o : Fin 128) :
    cenvec h (ix2 n o) = h (ix2 n o) - meanvec h (ix2 (0 : Fin 1) o) := by
  unfold cenvec
  rw [subf_apply, broadcastTo_1b_ab_apply]

/-- A column's biased variance, kept as a row. -/
def varvec (h : FVec Ideal S8192x128 .f32) : FVec Ideal S1x128 .f32 :=
  divf (shapeCast S1x128 (multiReduction .add [0] S128 (mulf (cenvec h) (cenvec h)) 0x00000000#32 reduces_S8192x128_S128 (.inl rfl) rfl) shapeCasts_S128_S1x128)
    (broadcast S1x128 (Scalar.ofBits .f32 0x46000000#32))

theorem varvec_apply (h : FVec Ideal S8192x128 .f32) (o : Fin 128) :
    varvec h (ix2 (0 : Fin 1) o)
      = Ideal.div (Ideal.ofBits .f32 0x00000000#32 + ∑ n : Fin 8192, cenvec h (ix2 n o) * cenvec h (ix2 n o))
          (Ideal.ofBits .f32 0x46000000#32) := by
  unfold varvec
  rw [divf_apply, shapeCast_a_1a_apply, colsum_apply, Ideal.ofBits_zero_f32, zero_add]
  exact rfl

/-- The stored value at row `n`, column `o` is `Spec.tail` of what the body loaded, coordinate by coordinate. -/
theorem tail_apply (dg : Vec Ideal S8192x1 .f32) (ag : Vec Ideal S8192x128 .f32) (wn : Vec Ideal S128x128 .f32)
    (bn : Vec Ideal S1x128 .f32) (xw : Vec Ideal S8192x128 .f32) (gm bt : Vec Ideal S1x128 .f32) (n : Fin 8192) (o : Fin 128) :
    k0_pay1 (F := Ideal) (k0_pay2 (F := Ideal) dg ag wn bn xw gm) bt (ix2 n o)
      = Cert.Spec.tail (fun r => dg (ix2 r (0 : Fin 1))) (fun r k => ag (ix2 r k)) (fun a b => wn (ix2 a b))
          (fun b => bn (ix2 (0 : Fin 1) b)) (fun r k => xw (ix2 r k)) (fun b => gm (ix2 (0 : Fin 1) b))
          (fun b => bt (ix2 (0 : Fin 1) b)) n o := by
  -- the two payloads are this composition of the vectors above
  show maximumf (F := Ideal)
      (addf (F := Ideal)
        (mulf (F := Ideal) (broadcastTo S8192x128 (shapeCast S1x128 gm shapeCasts_S1x128_S1x128) broadcasts_S1x128_S8192x128)
          (mulf (F := Ideal) (cenvec (hvec dg ag wn bn xw))
            (broadcastTo S8192x128
              (rsqrt (F := Ideal) (addf (F := Ideal) (varvec (hvec dg ag wn bn xw)) (broadcast S1x128 (Scalar.ofBits .f32 0x3727C5AC#32))))
              broadcasts_S1x128_S8192x128)))
        (broadcastTo S8192x128 (shapeCast S1x128 bt shapeCasts_S1x128_S1x128) broadcasts_S1x128_S8192x128))
      (broadcast S8192x128 (Scalar.ofBits .f32 0x00000000#32)) (ix2 n o) = _
  rw [maximumf_apply, addf_apply, mulf_apply, mulf_apply, broadcastTo_1b_ab_apply, broadcastTo_1b_ab_apply,
    broadcastTo_1b_ab_apply, shapeCast_self, shapeCast_self, cenvec_apply, meanvec_apply]
  unfold Cert.Spec.tail Cert.Spec.var Cert.Spec.cen Cert.Spec.mean
  simp only [← hvec_apply]
  have hv : rsqrt (F := Ideal) (addf (F := Ideal) (varvec (hvec dg ag wn bn xw)) (broadcast S1x128 (Scalar.ofBits .f32 0x3727C5AC#32))) (ix2 (0 : Fin 1) o)
      = Ideal.rsqrt (varvec (hvec dg ag wn bn xw) (ix2 (0 : Fin 1) o) + Ideal.ofBits .f32 0x3727C5AC#32) := rfl
  rw [hv, varvec_apply]
  simp only [cenvec_apply, meanvec_apply]
  exact rfl

end Cert.KernelIdeal.TailValue

end
-- ==== Proof.LibBlockSum.lean ====
/-
  Three general facts: a sum over B·R indices taken block by block, a 32-bit word read as a small natural number, and an
  indicator times an extended real.
-/
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

/-! ## A sum over B·R indices, block by block -/

/-- Entry `r` of block `t`, among `N = B * R` indices cut into `B` consecutive blocks of `R`: the index `R * t + r`. -/
def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

/-- Its value is `R * t + r`. -/
theorem blockIdx_val {B R N : Nat} (h : B * R = N) (t : Fin B) (r : Fin R) :
    (blockIdx h t r).val = R * t.val + r.val := rfl

/-- A sum over `N = B * R` indices is the sum over the `B` blocks of the sum over each block's `R` entries. -/
theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

/-! ## A 32-bit word that is a small natural number -/

/-- A 32-bit word is the word of a natural number `g` below `2 ^ 31` exactly when, read as a signed integer, it is `g`. -/
theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

/-! ## An indicator times an extended real -/

/-- One or zero, by a condition, times an extended real is the real or zero, by the condition. -/
theorem ite_one_zero_mul (p : Prop) [Decidable p] (x : EReal) :
    (if p then (1 : EReal) else 0) * x = if p then x else 0 := by
  split
  · exact one_mul x
  · exact zero_mul x

/-- The example: 100000 indices as 20 blocks of 5000 (name the two factors: the product alone does not determine them). -/
example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KernelIdealScratch.lean ====
/-
  What the three scratch buffers hold when the last point reads them, at the extended reals, as functions of the
  argument arrays: the degrees are the adjacency matrix's row sums, the skip values `X W_cᵀ + b_c` row by row, and the
  aggregation the sum over the 32 row blocks of `A_blkᵀ X_blk`, which is `Aᵀ X`.
-/
import proofs.«177865_j88742614270232_1_alg».proof.Proof.KernelIdealState
import proofs.«177865_j88742614270232_1_alg».proof.Proof.Spec
import proofs.«177865_j88742614270232_1_alg».proof.Proof.LibBlockSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ScratchValue

open Idealize.ShloMosaic Idealize.ShloMosaic.TcCoe Idealize.SL.Sem
open Cert.KernelIdeal Cert.KernelIdeal.Gen Cert.KernelIdeal.Carry
open ValueIdx

variable (m : (ℓ : Loc nD τ sig) → Buf (Elt Ideal) ℓ) (c : Dev nD)

/-- The argument arrays as launched, as functions of coordinates. -/
abbrev Xa (r : Fin 8192) (k : Fin 128) : EReal := (m ((c.tc : Thread nD τ).loc main_arg0) : S8192x128.Idx → EReal) (ix2 r k)
abbrev Aa (r k : Fin 8192) : EReal := (m ((c.tc : Thread nD τ).loc main_arg1) : S8192x8192.Idx → EReal) (ix2 r k)
abbrev Wna (a b : Fin 128) : EReal := (m ((c.tc : Thread nD τ).loc main_arg2) : S128x128.Idx → EReal) (ix2 a b)
abbrev bna (b : Fin 128) : EReal := (m ((c.tc : Thread nD τ).loc main_arg3) : S128.Idx → EReal) (ix1 b)
abbrev Wca (a b : Fin 128) : EReal := (m ((c.tc : Thread nD τ).loc main_arg4) : S128x128.Idx → EReal) (ix2 a b)
abbrev bca (b : Fin 128) : EReal := (m ((c.tc : Thread nD τ).loc main_arg5) : S128.Idx → EReal) (ix1 b)
abbrev gma (b : Fin 128) : EReal := (m ((c.tc : Thread nD τ).loc main_arg6) : S128.Idx → EReal) (ix1 b)
abbrev bta (b : Fin 128) : EReal := (m ((c.tc : Thread nD τ).loc main_arg7) : S128.Idx → EReal) (ix1 b)

/-- The printed index maps, decided once over the grid: the two row-blocked windows move with the point on axis 0,
    the whole-array windows stay at block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_whole : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row `s` of the adjacency block at point `t` is row `256 t + s` of the adjacency matrix. -/
theorem ablk_apply (t : Fin cfg0.N) (s : Fin 256) (k : Fin 8192) (h : 256 * t.val + s.val < 8192) :
    ablk (F := Ideal) m c t (ix2 s k) = Aa m c ⟨256 * t.val + s.val, h⟩ k := by
  show V m c main_arg1 (((cfg0.win 1).blk t).view.emb (ix2 s k)) = _
  rw [V_main_arg1]
  obtain ⟨-, -, e0, e1⟩ := idx_rows t
  refine congrArg _ (funext fun a => Fin.ext ?_)
  match a with
  | ⟨0, _⟩ => show win0_1.index t (0 : Fin 2) * 256 + 1 * s.val = 256 * t.val + s.val; omega
  | ⟨1, _⟩ => show win0_1.index t (1 : Fin 2) * 8192 + 1 * k.val = k.val; omega

/-- Row `s` of the feature block at point `t` is row `256 t + s` of the features. -/
theorem xblk_apply (t : Fin cfg0.N) (s : Fin 256) (k : Fin 128) (h : 256 * t.val + s.val < 8192) :
    xblk (F := Ideal) m c t (ix2 s k) = Xa m c ⟨256 * t.val + s.val, h⟩ k := by
  show V m c main_arg0 (((cfg0.win 0).blk t).view.emb (ix2 s k)) = _
  rw [V_main_arg0]
  obtain ⟨e0, e1, -, -⟩ := idx_rows t
  refine congrArg _ (funext fun a => Fin.ext ?_)
  match a with
  | ⟨0, _⟩ => show win0_0.index t (0 : Fin 2) * 256 + 1 * s.val = 256 * t.val + s.val; omega
  | ⟨1, _⟩ => show win0_0.index t (1 : Fin 2) * 128 + 1 * k.val = k.val; omega

theorem wcblk_apply (t : Fin cfg0.N) (a b : Fin 128) : wcblk (F := Ideal) m c t (ix2 a b) = Wca m c a b := by
  show V m c main_arg4 (((cfg0.win 4).blk t).view.emb (ix2 a b)) = _
  rw [V_main_arg4]
  obtain ⟨-, -, -, -, e0, e1, -⟩ := idx_whole t
  refine congrArg _ (funext fun x => Fin.ext ?_)
  match x with
  | ⟨0, _⟩ => show win0_4.index t (0 : Fin 2) * 128 + 1 * a.val = a.val; omega
  | ⟨1, _⟩ => show win0_4.index t (1 : Fin 2) * 128 + 1 * b.val = b.val; omega

/-- The four vectors reach the region as `[1, 128]` reshapes of the launched `[128]` arrays. -/
theorem V_main_v0 : (Gen.V m c main_v0 : S1x128.Idx → EReal) = shapeCast S1x128 (m ((c : Thread nD τ).loc main_arg3)) shapeCasts_S128_S1x128 := by
  dsimp only [Gen.V, Gen.hostOps0]; after_results; rfl
theorem V_main_v1 : (Gen.V m c main_v1 : S1x128.Idx → EReal) = shapeCast S1x128 (m ((c : Thread nD τ).loc main_arg5)) shapeCasts_S128_S1x128 := by
  dsimp only [Gen.V, Gen.hostOps0]; after_results; rfl
theorem V_main_v2 : (Gen.V m c main_v2 : S1x128.Idx → EReal) = shapeCast S1x128 (m ((c : Thread nD τ).loc main_arg6)) shapeCasts_S128_S1x128 := by
  dsimp only [Gen.V, Gen.hostOps0]; after_results; rfl
theorem V_main_v3 : (Gen.V m c main_v3 : S1x128.Idx → EReal) = shapeCast S1x128 (m ((c : Thread nD τ).loc main_arg7)) shapeCasts_S128_S1x128 := by
  dsimp only [Gen.V, Gen.hostOps0]; after_results; rfl

theorem bcblk_apply (t : Fin cfg0.N) (b : Fin 128) : bcblk (F := Ideal) m c t (ix2 (0 : Fin 1) b) = bca m c b := by
  show (V m c main_v1 : S1x128.Idx → EReal) (((cfg0.win 5).blk t).view.emb (ix2 (0 : Fin 1) b)) = _
  rw [V_main_v1]
  obtain ⟨-, -, -, -, -, -, e0, e1, -⟩ := idx_whole t
  have e : ((cfg0.win 5).blk t).view.emb (ix2 (0 : Fin 1) b) = ix2 (0 : Fin 1) b := funext fun x => Fin.ext (by
    match x with
    | ⟨0, _⟩ => show win0_5.index t (0 : Fin 2) * 1 + 1 * 0 = 0; omega
    | ⟨1, _⟩ => show win0_5.index t (1 : Fin 2) * 128 + 1 * b.val = b.val; omega)
  rw [e]
  exact shapeCast_a_1a_apply _ _ 0 b

/-- A lane sum of a `256 × 8192` block over axis 1, read at row `p`: the sum of the row. -/
theorem lane_sum (src : FVec Ideal S256x8192 .f32) (h : S256x8192.Reduces [1] S256) (hφ : FKind.Formats .f32)
    (hacc : (0x00000000#32 : BitVec 32) = 0x00000000#32) (p : Fin 256) :
    multiReduction .add [1] S256 src 0x00000000#32 h hφ hacc (ix1 p) = ∑ k : Fin 8192, src (ix2 p k) := by
  refine (Ideal.multiReduction_add_single src 0x00000000#32 h hφ hacc (ix1 p)).trans ?_
  refine Finset.sum_congr rfl fun k _ => congrArg src (funext fun a => Fin.ext ?_)
  match a with
  | ⟨0, _⟩ => rfl
  | ⟨1, _⟩ => rfl

/-- The degree payload at row `p` of a block: the block's row sum. -/
theorem pay4_apply (v5 : Vec Ideal S256x8192 .f32) (p : Fin 256) (q : Fin 1) :
    k0_pay4 v5 (ix2 p q) = ∑ k : Fin 8192, v5 (ix2 p k) := by
  unfold k0_pay4
  rw [shapeCast_self]
  refine (shapeCast_apply _ _ (ix2 p q) (ix1 p) ?_).trans ?_
  · rw [Shape.rowMajor_val_one, Shape.rowMajor_val_two]
    show p.val = p.val * 1 + q.val
    omega
  · exact lane_sum v5 _ _ _ p

/-! ### The skip head's product: `[256,128] · [128,128]`, contracting axis 1 with axis 0 -/

theorem lhs_skip_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_skip_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs_skip_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs_skip_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The product into a zero accumulator at `(p, o)`: the sum over the shared axis. -/
theorem matmul_skip_apply (x : FVec Ideal S256x128 .f32) (y : FVec Ideal S128x128 .f32) (p : Fin 256) (o : Fin 128) :
    matmul dot_S256x128_S128x128_S256x128_1_0_0_1_n_n none x y (constant (F := Ideal) S256x128 .f32 0x00000000#32) (ix2 p o)
      = ∑ k : Fin 128, x (ix2 p k) * y (ix2 k o) := by
  simp only [matmul]
  rw [Ideal.matmul_constant_zero_apply, ← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p o) ((ValueIdx.contrEquiv1 dot_S256x128_S128x128_S256x128_1_0_0_1_n_n 128 rfl rfl).symm k) = ix2 p k := funext fun a => Fin.ext (by
    match a with
    | ⟨0, _⟩ => exact lhs_skip_0 _ _
    | ⟨1, _⟩ => exact (lhs_skip_1 _ _).trans hk)
  have er : dot_S256x128_S128x128_S256x128_1_0_0_1_n_n.rhsIdx (ix2 p o) ((ValueIdx.contrEquiv1 dot_S256x128_S128x128_S256x128_1_0_0_1_n_n 128 rfl rfl).symm k) = ix2 k o := funext fun a => Fin.ext (by
    match a with
    | ⟨0, _⟩ => exact (rhs_skip_0 _ _).trans hk
    | ⟨1, _⟩ => exact rhs_skip_1 _ _)
  rw [el, er]

/-- The skip payload at `(p, o)` of a block: row `p` of the features against row `o` of the skip weights, plus the bias. -/
theorem pay5_apply (v6 : Vec Ideal S256x128 .f32) (v13 : Vec Ideal S128x128 .f32) (v16 : Vec Ideal S1x128 .f32) (p : Fin 256) (o : Fin 128) :
    k0_pay5 v6 v13 v16 (ix2 p o) = (∑ k : Fin 128, v6 (ix2 p k) * v13 (ix2 o k)) + v16 (ix2 (0 : Fin 1) o) := by
  unfold k0_pay5
  rw [shapeCast_self, addf_apply, matmul_skip_apply, broadcastTo_1b_ab_apply, shapeCast_self]
  refine congrArg (· + v16 (ix2 (0 : Fin 1) o)) (Finset.sum_congr rfl fun k _ => ?_)
  rw [transpose_ix2_apply]

/-! ### The aggregation's product: `[256,8192]ᵀ · [256,128]`, contracting axis 0 of both -/

theorem lhs_agg_0 (i : S8192x128.Idx) (q : dot_S256x8192_S256x128_S8192x128_0_0_1_1_n_n.contr.Idx) :
    (dot_S256x8192_S256x128_S8192x128_0_0_1_1_n_n.lhsIdx i q 0).val = (q ⟨0, by decide⟩).val :=
  dot_S256x8192_S256x128_S8192x128_0_0_1_1_n_n.lhsIdx_val_of_single rfl i q
theorem lhs_agg_1 (i : S8192x128.Idx) (q : dot_S256x8192_S256x128_S8192x128_0_0_1_1_n_n.contr.Idx) :
    (dot_S256x8192_S256x128_S8192x128_0_0_1_1_n_n.lhsIdx i q 1).val = (i 0).val := by
  unfold DotDims.lhsIdx
  rw [dif_neg (show ¬(1 : Fin S256x8192.rank) ∈ dot_S256x8192_S256x128_S8192x128_0_0_1_1_n_n.lhsBatch by decide), dif_pos (show (1 : Fin S256x8192.rank) ∈ dot_S256x8192_S256x128_S8192x128_0_0_1_1_n_n.lhsNonContracting by decide)]
  rfl
theorem rhs_agg_0 (i : S8192x128.Idx) (q : dot_S256x8192_S256x128_S8192x128_0_0_1_1_n_n.contr.Idx) :
    (dot_S256x8192_S256x128_S8192x128_0_0_1_1_n_n.rhsIdx i q 0).val = (q ⟨0, by decide⟩).val :=
  dot_S256x8192_S256x128_S8192x128_0_0_1_1_n_n.rhsIdx_val_of_single rfl i q
theorem rhs_agg_1 (i : S8192x128.Idx) (q : dot_S256x8192_S256x128_S8192x128_0_0_1_1_n_n.contr.Idx) :
    (dot_S256x8192_S256x128_S8192x128_0_0_1_1_n_n.rhsIdx i q 1).val = (i 1).val := by
  unfold DotDims.rhsIdx
  rw [dif_neg (show ¬(1 : Fin S256x128.rank) ∈ dot_S256x8192_S256x128_S8192x128_0_0_1_1_n_n.rhsBatch by decide), dif_pos (show (1 : Fin S256x128.rank) ∈ dot_S256x8192_S256x128_S8192x128_0_0_1_1_n_n.rhsNonContracting by decide)]
  rfl

/-- The product into a zero accumulator at `(n, k)`: the sum over the block's rows. -/
theorem matmul_agg_apply (x : FVec Ideal S256x8192 .bf16) (y : FVec Ideal S256x128 .bf16) (n : Fin 8192) (k : Fin 128) :
    matmul dot_S256x8192_S256x128_S8192x128_0_0_1_1_n_n none x y (constant (F := Ideal) S8192x128 .f32 0x00000000#32) (ix2 n k)
      = ∑ s : Fin 256, x (ix2 s n) * y (ix2 s k) := by
  simp only [matmul]
  rw [Ideal.matmul_constant_zero_apply, ← Equiv.sum_comp (ValueIdx.contrEquiv1 dot_S256x8192_S256x128_S8192x128_0_0_1_1_n_n 256 rfl rfl).symm]
  refine Finset.sum_congr rfl fun s _ => ?_
  have hs := ValueIdx.contrEquiv1_symm_val dot_S256x8192_S256x128_S8192x128_0_0_1_1_n_n 256 rfl rfl s
  have el : dot_S256x8192_S256x128_S8192x128_0_0_1_1_n_n.lhsIdx (ix2 n k) ((ValueIdx.contrEquiv1 dot_S256x8192_S256x128_S8192x128_0_0_1_1_n_n 256 rfl rfl).symm s) = ix2 s n := funext fun a => Fin.ext (by
    match a with
    | ⟨0, _⟩ => exact (lhs_agg_0 _ _).trans hs
    | ⟨1, _⟩ => exact lhs_agg_1 _ _)
  have er : dot_S256x8192_S256x128_S8192x128_0_0_1_1_n_n.rhsIdx (ix2 n k) ((ValueIdx.contrEquiv1 dot_S256x8192_S256x128_S8192x128_0_0_1_1_n_n 256 rfl rfl).symm s) = ix2 s k := funext fun a => Fin.ext (by
    match a with
    | ⟨0, _⟩ => exact (rhs_agg_0 _ _).trans hs
    | ⟨1, _⟩ => exact rhs_agg_1 _ _)
  rw [el, er]

/-- The aggregation payload at `(n, k)`: what was there plus the block's `Aᵀ X` entry. -/
theorem pay6_apply (v5 : Vec Ideal S256x8192 .f32) (v6 : Vec Ideal S256x128 .f32) (v27 : Vec Ideal S8192x128 .f32) (n : Fin 8192) (k : Fin 128) :
    k0_pay6 v5 v6 v27 (ix2 n k) = v27 (ix2 n k) + ∑ s : Fin 256, v5 (ix2 s n) * v6 (ix2 s k) := by
  unfold k0_pay6
  rw [shapeCast_self, addf_apply, matmul_agg_apply]
  rfl

/-- The reset value of the aggregation scratch is zero everywhere. -/
theorem pay3_apply (j : S8192x128.Idx) : (k0_pay3 (F := Ideal)) j = 0 := by
  unfold k0_pay3
  rw [shapeCast_self]
  exact Ideal.ofBits_zero_f32

/-- Row `s` of block `t` among the 8192 rows. -/
abbrev rowOf (t : Fin 32) (s : Fin 256) : Fin 8192 := Cert.LibBlockSum.blockIdx (B := 32) (R := 256) (N := 8192) (by norm_num) t s

/-- Block `t`'s share of `(Aᵀ X) n k` (zero past the last block). -/
def blockTerm (t : ℕ) (n : Fin 8192) (k : Fin 128) : EReal :=
  if ht : t < 32 then ∑ s : Fin 256, Aa m c (rowOf ⟨t, ht⟩ s) n * Xa m c (rowOf ⟨t, ht⟩ s) k else 0

/-- The staged blocks' product at point `t` is block `t`'s share. -/
theorem block_product (t : Fin cfg0.N) (n : Fin 8192) (k : Fin 128) :
    ∑ s : Fin 256, ablk (F := Ideal) m c t (ix2 s n) * xblk (F := Ideal) m c t (ix2 s k) = blockTerm m c t.val n k := by
  have ht : t.val < 32 := lt_of_lt_of_eq t.isLt N_eq
  unfold blockTerm
  rw [dif_pos ht]
  refine Finset.sum_congr rfl fun s _ => ?_
  have h : 256 * t.val + s.val < 8192 := by have := s.isLt; omega
  have e : (⟨256 * t.val + s.val, h⟩ : Fin 8192) = rowOf ⟨t.val, ht⟩ s := Fin.ext rfl
  rw [ablk_apply m c t s n h, xblk_apply m c t s k h, e]

/-- The aggregation scratch after point `n`: the shares of the blocks up to `n`. -/
theorem aggAt_apply (n : ℕ) (h : n < cfg0.N) (nn : Fin 8192) (k : Fin 128) :
    aggAt (F := Ideal) m c n h (ix2 nn k) = ∑ t ∈ Finset.range (n + 1), blockTerm m c t nn k := by
  induction n with
  | zero =>
    rw [aggAt_zero, pay6_apply, pay3_apply, zero_add, Finset.sum_range_one]
    exact block_product m c ⟨0, h⟩ nn k
  | succ n ih =>
    rw [Finset.sum_range_succ _ (n + 1), aggAt_succ, pay6_apply, ih (Nat.lt_of_succ_lt h)]
    exact congrArg _ (block_product m c ⟨n + 1, h⟩ nn k)

/-- The degree scratch, complete: the adjacency matrix's row sums. -/
theorem degFull_apply (r : Fin 8192) : degFull (F := Ideal) m c (ix2 r (0 : Fin 1)) = Cert.Spec.deg (Aa m c) r := by
  have hp : (ptOf r).val = r.val / 256 := rfl
  have hq : (rowIn r).val = r.val % 256 := rfl
  have hr : 256 * (ptOf r).val + (rowIn r).val = r.val := by omega
  have h : 256 * (ptOf r).val + (rowIn r).val < 8192 := by have := r.isLt; omega
  have e : (⟨256 * (ptOf r).val + (rowIn r).val, h⟩ : Fin 8192) = r := Fin.ext hr
  show k0_pay4 (ablk (F := Ideal) m c (ptOf r)) (ix2 (rowIn r) (0 : Fin 1)) = _
  rw [pay4_apply]
  unfold Cert.Spec.deg
  show _ = Ideal.ofBits .f32 0x00000000#32 + ∑ k : Fin 8192, Aa m c r k
  rw [Ideal.ofBits_zero_f32, zero_add]
  refine Finset.sum_congr rfl fun k _ => ?_
  rw [ablk_apply m c (ptOf r) (rowIn r) k h, e]

/-- The skip scratch, complete: `X W_cᵀ + b_c`. -/
theorem xwcFull_apply (n : Fin 8192) (o : Fin 128) :
    xwcFull (F := Ideal) m c (ix2 n o) = Cert.Spec.xwc (Xa m c) (Wca m c) (bca m c) n o := by
  have hp : (ptOf n).val = n.val / 256 := rfl
  have hq : (rowIn n).val = n.val % 256 := rfl
  have hr : 256 * (ptOf n).val + (rowIn n).val = n.val := by omega
  have h : 256 * (ptOf n).val + (rowIn n).val < 8192 := by have := n.isLt; omega
  have e : (⟨256 * (ptOf n).val + (rowIn n).val, h⟩ : Fin 8192) = n := Fin.ext hr
  show k0_pay5 (xblk (F := Ideal) m c (ptOf n)) (wcblk (F := Ideal) m c (ptOf n)) (bcblk (F := Ideal) m c (ptOf n)) (ix2 (rowIn n) o) = _
  rw [pay5_apply, bcblk_apply]
  unfold Cert.Spec.xwc
  refine congrArg (· + bca m c o) (Finset.sum_congr rfl fun k _ => ?_)
  rw [xblk_apply m c (ptOf n) (rowIn n) k h, e, wcblk_apply]

/-- The aggregation scratch after the last point: `Aᵀ X`. -/
theorem aggLast_apply (n : Fin 8192) (k : Fin 128) :
    aggAt (F := Ideal) m c 31 tLast.isLt (ix2 n k) = Cert.Spec.agg (Xa m c) (Aa m c) n k := by
  refine (aggAt_apply m c 31 _ n k).trans ?_
  unfold Cert.Spec.agg
  rw [Cert.LibBlockSum.sum_blocks (B := 32) (R := 256) (N := 8192) (by norm_num) (fun r => Aa m c r n * Xa m c r k)]
  show ∑ t ∈ Finset.range 32, blockTerm m c t n k = _
  rw [Finset.sum_range]
  refine Finset.sum_congr rfl fun t _ => ?_
  unfold blockTerm
  rw [dif_pos t.isLt]

/-- The small operands' blocks are their arrays. -/
theorem wnblk_apply (t : Fin cfg0.N) (a b : Fin 128) : wnblk (F := Ideal) m c t (ix2 a b) = Wna m c a b := by
  show V m c main_arg2 (((cfg0.win 2).blk t).view.emb (ix2 a b)) = _
  rw [V_main_arg2]
  obtain ⟨e0, e1, -⟩ := idx_whole t
  refine congrArg _ (funext fun x => Fin.ext ?_)
  match x with
  | ⟨0, _⟩ => show win0_2.index t (0 : Fin 2) * 128 + 1 * a.val = a.val; omega
  | ⟨1, _⟩ => show win0_2.index t (1 : Fin 2) * 128 + 1 * b.val = b.val; omega
theorem bnblk_apply (t : Fin cfg0.N) (b : Fin 128) : bnblk (F := Ideal) m c t (ix2 (0 : Fin 1) b) = bna m c b := by
  show (V m c main_v0 : S1x128.Idx → EReal) (((cfg0.win 3).blk t).view.emb (ix2 (0 : Fin 1) b)) = _
  rw [V_main_v0]
  obtain ⟨-, -, e0, e1, -⟩ := idx_whole t
  have e : ((cfg0.win 3).blk t).view.emb (ix2 (0 : Fin 1) b) = ix2 (0 : Fin 1) b := funext fun x => Fin.ext (by
    match x with
    | ⟨0, _⟩ => show win0_3.index t (0 : Fin 2) * 1 + 1 * 0 = 0; omega
    | ⟨1, _⟩ => show win0_3.index t (1 : Fin 2) * 128 + 1 * b.val = b.val; omega)
  rw [e]
  exact shapeCast_a_1a_apply _ _ 0 b
theorem gmblk_apply (t : Fin cfg0.N) (b : Fin 128) : gmblk (F := Ideal) m c t (ix2 (0 : Fin 1) b) = gma m c b := by
  show (V m c main_v2 : S1x128.Idx → EReal) (((cfg0.win 6).blk t).view.emb (ix2 (0 : Fin 1) b)) = _
  rw [V_main_v2]
  obtain ⟨-, -, -, -, -, -, -, -, e0, e1, -⟩ := idx_whole t
  have e : ((cfg0.win 6).blk t).view.emb (ix2 (0 : Fin 1) b) = ix2 (0 : Fin 1) b := funext fun x => Fin.ext (by
    match x with
    | ⟨0, _⟩ => show win0_6.index t (0 : Fin 2) * 1 + 1 * 0 = 0; omega
    | ⟨1, _⟩ => show win0_6.index t (1 : Fin 2) * 128 + 1 * b.val = b.val; omega)
  rw [e]
  exact shapeCast_a_1a_apply _ _ 0 b
theorem btblk_apply (t : Fin cfg0.N) (b : Fin 128) : btblk (F := Ideal) m c t (ix2 (0 : Fin 1) b) = bta m c b := by
  show (V m c main_v3 : S1x128.Idx → EReal) (((cfg0.win 7).blk t).view.emb (ix2 (0 : Fin 1) b)) = _
  rw [V_main_v3]
  obtain ⟨-, -, -, -, -, -, -, -, -, -, e0, e1⟩ := idx_whole t
  have e : ((cfg0.win 7).blk t).view.emb (ix2 (0 : Fin 1) b) = ix2 (0 : Fin 1) b := funext fun x => Fin.ext (by
    match x with
    | ⟨0, _⟩ => show win0_7.index t (0 : Fin 2) * 1 + 1 * 0 = 0; omega
    | ⟨1, _⟩ => show win0_7.index t (1 : Fin 2) * 128 + 1 * b.val = b.val; omega)
  rw [e]
  exact shapeCast_a_1a_apply _ _ 0 b

end Cert.KernelIdeal.ScratchValue

end
-- ==== Proof.RefValue.lean ====
/-
  The reference, read coordinate by coordinate at the extended reals: its stages are the specification's, with the
  activations grouped `((lin + b_n) + X W_cᵀ) + b_c` where the specification groups `(lin + b_n) + (X W_cᵀ + b_c)`;
  addition of extended reals is associative.
-/
import proofs.«177865_j88742614270232_1_alg».proof.Proof.Gen.ReferenceIdeal.Read
import proofs.«177865_j88742614270232_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read
open ValueIdx

/-! ## The arguments as functions of coordinates -/

/-- The node features. -/
private abbrev mX (x0 : (⟨S8192x128, .f32⟩ : BufTy).Contents (Elt Ideal)) : Fin 8192 → Fin 128 → EReal := fun r k => x0 (ix2 r k)
/-- The adjacency matrix. -/
private abbrev mA (x1 : (⟨S8192x8192, .f32⟩ : BufTy).Contents (Elt Ideal)) : Fin 8192 → Fin 8192 → EReal := fun r k => x1 (ix2 r k)
/-- A square weight matrix. -/
private abbrev mW (x2 : (⟨S128x128, .f32⟩ : BufTy).Contents (Elt Ideal)) : Fin 128 → Fin 128 → EReal := fun a b => x2 (ix2 a b)
/-- A vector over the output columns. -/
private abbrev mV (x3 : (⟨S128, .f32⟩ : BufTy).Contents (Elt Ideal)) : Fin 128 → EReal := fun b => x3 (ix1 b)

section Stages

variable (x0 : (⟨S8192x128, .f32⟩ : BufTy).Contents (Elt Ideal)) (x1 : (⟨S8192x8192, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 : (⟨S128, .f32⟩ : BufTy).Contents (Elt Ideal))

/-- The row sums are the degrees. -/
theorem v0_at (i : S8192.Idx) : val_main_v0 (F := Ideal) x1 i = Cert.Spec.deg (mA x1) (i 0) := by
  rw [val_main_v0_apply, val_main_cst_apply]
  unfold Cert.Spec.deg
  refine congrArg (_ + ·) (Finset.sum_congr rfl fun k _ => ?_)
  exact congrArg x1 (funext fun a => by match a with | ⟨0, _⟩ => rfl | ⟨1, _⟩ => rfl)

/-- A zero degree replaced by one. -/
theorem v5_at (i : S8192x1.Idx) : val_main_v5 (F := Ideal) x1 i = Cert.Spec.dsafe (Cert.Spec.deg (mA x1)) (i 0) := by
  rw [val_main_v5_apply, val_main_v3_apply, val_main_v4_apply, val_main_cst_1_apply, val_main_v1_apply, val_main_v2_apply,
    val_main_cst_0_apply, v0_at]
  rfl

/-- The aggregation `Aᵀ X`. -/
theorem v7_at (i : S8192x128.Idx) : val_main_v7 (F := Ideal) x0 x1 i = Cert.Spec.agg (mX x0) (mA x1) (i 0) (i 1) := by
  rw [val_main_v7_apply]
  unfold Cert.Spec.agg
  refine Finset.sum_congr rfl fun k _ => ?_
  rw [val_main_v6_apply]
  have e1 : idx_main_v6 (lidx_main_v7 i k) = ix2 k (i 0) := funext fun a => by match a with | ⟨0, _⟩ => rfl | ⟨1, _⟩ => rfl
  have e2 : ridx_main_v7 i k = ix2 k (i 1) := funext fun a => by match a with | ⟨0, _⟩ => rfl | ⟨1, _⟩ => rfl
  rw [e1, e2]
  rfl

/-- The mean aggregation: each row divided by its safe degree. -/
theorem v9_at (i : S8192x128.Idx) :
    val_main_v9 (F := Ideal) x0 x1 i
      = Ideal.div (Cert.Spec.agg (mX x0) (mA x1) (i 0) (i 1)) (Cert.Spec.dsafe (Cert.Spec.deg (mA x1)) (i 0)) := by
  rw [val_main_v9_apply, val_main_v8_apply, v7_at, v5_at]
  rfl

/-- The neighbour head. -/
theorem v11_at (i : S8192x128.Idx) :
    val_main_v11 (F := Ideal) x0 x1 x2 i
      = Cert.Spec.lin (Cert.Spec.deg (mA x1)) (Cert.Spec.agg (mX x0) (mA x1)) (mW x2) (i 0) (i 1) := by
  rw [val_main_v11_apply]
  unfold Cert.Spec.lin
  refine Finset.sum_congr rfl fun k _ => ?_
  rw [v9_at, val_main_v10_apply]
  have e : idx_main_v10 (ridx_main_v11 i k) = ix2 (i 1) k := funext fun a => by match a with | ⟨0, _⟩ => rfl | ⟨1, _⟩ => rfl
  rw [e]
  rfl

/-- The neighbour head with its bias. -/
theorem v14_at (i : S8192x128.Idx) :
    val_main_v14 (F := Ideal) x0 x1 x2 x3 i
      = Cert.Spec.lin (Cert.Spec.deg (mA x1)) (Cert.Spec.agg (mX x0) (mA x1)) (mW x2) (i 0) (i 1) + mV x3 (i 1) := by
  rw [val_main_v14_apply, v11_at, val_main_v13_apply, val_main_v12_apply]
  have e : idx_main_v12 (idx_main_v13 i) = ix1 (i 1) := funext fun a => by match a with | ⟨0, _⟩ => rfl
  rw [e]
  rfl

/-- The skip head's product `X W_cᵀ`. -/
theorem v16_at (i : S8192x128.Idx) :
    val_main_v16 (F := Ideal) x0 x4 i = ∑ k : Fin 128, mX x0 (i 0) k * mW x4 (i 1) k := by
  rw [val_main_v16_apply]
  refine Finset.sum_congr rfl fun k _ => ?_
  rw [val_main_v15_apply]
  have e1 : lidx_main_v16 i k = ix2 (i 0) k := funext fun a => by match a with | ⟨0, _⟩ => rfl | ⟨1, _⟩ => rfl
  have e2 : idx_main_v15 (ridx_main_v16 i k) = ix2 (i 1) k := funext fun a => by match a with | ⟨0, _⟩ => rfl | ⟨1, _⟩ => rfl
  rw [e1, e2]
  rfl

/-- The pre-normalisation activations: the reference adds the skip head's bias last, the specification adds it to the
    skip head's product first. -/
theorem v20_at (i : S8192x128.Idx) :
    val_main_v20 (F := Ideal) x0 x1 x2 x3 x4 x5 i
      = Cert.Spec.h (Cert.Spec.deg (mA x1)) (Cert.Spec.agg (mX x0) (mA x1)) (mW x2) (mV x3)
          (Cert.Spec.xwc (mX x0) (mW x4) (mV x5)) (i 0) (i 1) := by
  rw [val_main_v20_apply, val_main_v17_apply, v14_at, v16_at, val_main_v19_apply, val_main_v18_apply]
  have e : idx_main_v18 (idx_main_v19 i) = ix1 (i 1) := funext fun a => by match a with | ⟨0, _⟩ => rfl
  rw [e]
  unfold Cert.Spec.h Cert.Spec.xwc
  exact add_assoc _ _ _

/-- The batch mean of a column. -/
theorem v23_at (i : S128.Idx) :
    val_main_v23 (F := Ideal) x0 x1 x2 x3 x4 x5 i
      = Cert.Spec.mean (Cert.Spec.deg (mA x1)) (Cert.Spec.agg (mX x0) (mA x1)) (mW x2) (mV x3)
          (Cert.Spec.xwc (mX x0) (mW x4) (mV x5)) (i 0) := by
  rw [val_main_v23_apply, val_main_v21_apply, val_main_cst_2_apply, val_main_v22_apply, val_main_cst_3_apply]
  unfold Cert.Spec.mean
  refine congrArg (fun s => Ideal.div (_ + s) _) (Finset.sum_congr rfl fun k _ => ?_)
  exact v20_at x0 x1 x2 x3 x4 x5 (idx_main_v21 i k)

/-- The centred activations (the reference computes them twice, from the same mean). -/
theorem v26_at (i : S8192x128.Idx) :
    val_main_v26 (F := Ideal) x0 x1 x2 x3 x4 x5 i
      = Cert.Spec.cen (Cert.Spec.deg (mA x1)) (Cert.Spec.agg (mX x0) (mA x1)) (mW x2) (mV x3)
          (Cert.Spec.xwc (mX x0) (mW x4) (mV x5)) (i 0) (i 1) := by
  rw [val_main_v26_apply, v20_at, val_main_v25_apply, val_main_v24_apply, v23_at]
  rfl

theorem v33_at (i : S8192x128.Idx) :
    val_main_v33 (F := Ideal) x0 x1 x2 x3 x4 x5 i
      = Cert.Spec.cen (Cert.Spec.deg (mA x1)) (Cert.Spec.agg (mX x0) (mA x1)) (mW x2) (mV x3)
          (Cert.Spec.xwc (mX x0) (mW x4) (mV x5)) (i 0) (i 1) := by
  rw [val_main_v33_apply, v20_at, val_main_v32_apply, val_main_v31_apply, v23_at]
  rfl

/-- The biased batch variance of a column. -/
theorem v30_at (i : S128.Idx) :
    val_main_v30 (F := Ideal) x0 x1 x2 x3 x4 x5 i
      = Cert.Spec.var (Cert.Spec.deg (mA x1)) (Cert.Spec.agg (mX x0) (mA x1)) (mW x2) (mV x3)
          (Cert.Spec.xwc (mX x0) (mW x4) (mV x5)) (i 0) := by
  rw [val_main_v30_apply, val_main_v28_apply, val_main_cst_4_apply, val_main_v29_apply, val_main_cst_5_apply]
  unfold Cert.Spec.var
  refine congrArg (fun s => Ideal.div (_ + s) _) (Finset.sum_congr rfl fun k _ => ?_)
  rw [val_main_v27_apply, v26_at]
  rfl

/-- The normalised, scaled and shifted activations. -/
theorem v45_at (i : S8192x128.Idx) :
    val_main_v45 (F := Ideal) x0 x1 x2 x3 x4 x5 x6 x7 i
      = mV x6 (i 1)
          * (Cert.Spec.cen (Cert.Spec.deg (mA x1)) (Cert.Spec.agg (mX x0) (mA x1)) (mW x2) (mV x3)
                (Cert.Spec.xwc (mX x0) (mW x4) (mV x5)) (i 0) (i 1)
              * Ideal.rsqrt (Cert.Spec.var (Cert.Spec.deg (mA x1)) (Cert.Spec.agg (mX x0) (mA x1)) (mW x2) (mV x3)
                  (Cert.Spec.xwc (mX x0) (mW x4) (mV x5)) (i 1) + Cert.Spec.Eps))
          + mV x7 (i 1) := by
  rw [val_main_v45_apply, val_main_v42_apply, val_main_v41_apply, val_main_v40_apply, val_main_v39_apply, v33_at,
    val_main_v38_apply, val_main_v37_apply, val_main_v36_apply, val_main_v35_apply, v30_at, val_main_v34_apply,
    val_main_cst_6_apply, val_main_v44_apply, val_main_v43_apply]
  have e6 : idx_main_v40 (idx_main_v41 i) = ix1 (i 1) := funext fun a => by match a with | ⟨0, _⟩ => rfl
  have e7 : idx_main_v43 (idx_main_v44 i) = ix1 (i 1) := funext fun a => by match a with | ⟨0, _⟩ => rfl
  rw [e6, e7]
  rfl

end Stages

/-- The reference's result at row `n`, column `o` is the specification of its eight arguments. -/
theorem ref_apply (x0 : (⟨S8192x128, .f32⟩ : BufTy).Contents (Elt Ideal)) (x1 : (⟨S8192x8192, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 : (⟨S128, .f32⟩ : BufTy).Contents (Elt Ideal))
    (n : Fin 8192) (o : Fin 128) :
    val_main_v46 (F := Ideal) x0 x1 x2 x3 x4 x5 x6 x7 (ix2 n o)
      = Cert.Spec.out (fun r k => x0 (ix2 r k)) (fun r k => x1 (ix2 r k)) (fun a b => x2 (ix2 a b)) (fun b => x3 (ix1 b))
          (fun a b => x4 (ix2 a b)) (fun b => x5 (ix1 b)) (fun b => x6 (ix1 b)) (fun b => x7 (ix1 b)) n o := by
  rw [val_main_v46_apply, v45_at, val_main_call1_v0_apply, val_main_call1_cst_apply]
  rfl

end Cert.ReferenceIdeal.RefValue

end
-- ==== Proof.Bridge.lean ====
/-
  The two idealized programs compute one function.  The kernel's output array ends at the epilogue's value of the
  complete scratches, which coordinate by coordinate is the specification of the argument arrays; the reference's result
  is the same specification of its arguments; the arguments agree.
-/
import proofs.«177865_j88742614270232_1_alg».proof.Defs
import proofs.«177865_j88742614270232_1_alg».proof.Proof.KernelIdealFinal
import proofs.«177865_j88742614270232_1_alg».proof.Proof.KernelIdealTail
import proofs.«177865_j88742614270232_1_alg».proof.Proof.KernelIdealScratch
import proofs.«177865_j88742614270232_1_alg».proof.Proof.RefValue
import proofs.«177865_j88742614270232_1_alg».proof.Proof.Gen.ReferenceIdeal.Run
import proofs.«177865_j88742614270232_1_alg».proof.Proof.Gen.Pre_finite_inputs

noncomputable section

namespace Cert.Bridge

open Idealize.ShloMosaic Idealize.ShloMosaic.TcCoe Idealize.SL.Sem
open ValueIdx
open Cert.KernelIdeal.ScratchValue

/-- The kernel's final activations at row `n`, column `o`: the specification of the argument arrays. -/
theorem outFull_apply (m : (ℓ : Loc Cert.KernelIdeal.nD Cert.KernelIdeal.τ Cert.KernelIdeal.sig) → Buf (Elt Ideal) ℓ)
    (c : Dev Cert.KernelIdeal.nD) (n : Fin 8192) (o : Fin 128) :
    Cert.KernelIdeal.Carry.outFull (F := Ideal) m c (ix2 n o)
      = Cert.Spec.out (Xa m c) (Aa m c) (Wna m c) (bna m c) (Wca m c) (bca m c) (gma m c) (bta m c) n o := by
  unfold Cert.KernelIdeal.Carry.outFull
  rw [Cert.KernelIdeal.TailValue.tail_apply]
  simp only [degFull_apply, aggLast_apply, xwcFull_apply, wnblk_apply, bnblk_apply, gmblk_apply, btblk_apply]
  rfl

/-- From memories agreeing on the arguments both programs end with the same result array. -/
theorem algebraic : Cert.algebraic_KernelIdeal_ReferenceIdeal := by
  intro m ρ m' ρ' _ hagree
  refine ⟨fun c => Cert.KernelIdeal.Carry.outFull (F := Ideal) m c, Cert.KernelIdeal.Carry.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq]
  obtain ⟨e0, e1, e2, e3, e4, e5, e6, e7⟩ := hagree c
  rw [e0, e1, e2, e3, e4, e5, e6, e7]
  funext j
  obtain ⟨n, o, rfl⟩ : ∃ (n : Fin 8192) (o : Fin 128), j = ix2 n o := ⟨j 0, j 1, eq_ix2 j⟩
  rw [Cert.ReferenceIdeal.RefValue.ref_apply]
  exact (outFull_apply m c n o).symm

end Cert.Bridge

end
-- ==== Proof.lean ====
/-
  The certificate.  The kernel streams the adjacency matrix once, in 32 blocks of 256 rows: each grid point adds the
  block's contribution `A_blkᵀ X_blk` to an aggregation kept in scratch, writes the block's degrees (row sums) and skip
  values (`X_blk W_cᵀ + b_c`) into two more scratches, and the last point divides the aggregation by the degrees (zeros
  replaced by one), applies the neighbour head, adds the skip values, batch-normalises over the 8192 rows and rectifies.
  The reference computes the same with whole-array operations.  Over the extended reals the two agree: a sum over 8192
  rows is the sum over the 32 blocks of the sums over each block's rows, addition is associative, and every other
  operation is the same on both sides.  The frames of both printings of the kernel carry the three scratches'
  contents point by point; the reference's frame is its run.
-/
import proofs.«177865_j88742614270232_1_alg».proof.Defs
import proofs.«177865_j88742614270232_1_alg».proof.Proof.Gen.Kernel
import proofs.«177865_j88742614270232_1_alg».proof.Proof.Gen.KernelIdeal
import proofs.«177865_j88742614270232_1_alg».proof.Proof.Gen.ReferenceIdeal
import proofs.«177865_j88742614270232_1_alg».proof.Proof.Gen.Pre_finite_inputs
import proofs.«177865_j88742614270232_1_alg».proof.Proof.Gen.ReferenceIdeal.Run
import proofs.«177865_j88742614270232_1_alg».proof.Proof.KernelBody
import proofs.«177865_j88742614270232_1_alg».proof.Proof.KernelIdealBody
import proofs.«177865_j88742614270232_1_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Carry.frame m ρ

/-- So does the idealized kernel. -/
theorem frame_kernelIdeal : Cert.frame_KernelIdeal := fun m ρ _ => Cert.KernelIdeal.Carry.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Bridge.algebraic⟩

end Cert.Proof

end
